-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S128x128 .f32) (main_arg3 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S2x5000x10000 : Shape := ⟨3, ![2, 5000, 10000]⟩
abbrev S1x128 : Shape := ⟨2, ![1, 128]⟩
abbrev S2x5000x128 : Shape := ⟨3, ![2, 5000, 128]⟩
abbrev S1x224x10000 : Shape := ⟨3, ![1, 224, 10000]⟩
abbrev S2x224x128 : Shape := ⟨3, ![2, 224, 128]⟩
abbrev S224x10000 : Shape := ⟨2, ![224, 10000]⟩
abbrev S224x128 : Shape := ⟨2, ![224, 128]⟩
abbrev S1x224x128 : Shape := ⟨3, ![1, 224, 128]⟩

abbrev nBuf : Space → Nat
  | .hbm => 8
  | .vmem => 10
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S2x5000x10000, .f32⟩
  | .hbm, ⟨5, _⟩ => ⟨S1x128, .f32⟩
  | .hbm, ⟨6, _⟩ => ⟨S2x5000x128, .f32⟩
  | .hbm, ⟨7, _⟩ => ⟨S10000x128, .f32⟩
  | .local _ .vmem, ⟨0, _⟩ => ⟨S10000x128, .f32⟩
  | .local _ .vmem, ⟨1, _⟩ => ⟨S128x128, .f32⟩
  | .local _ .vmem, ⟨2, _⟩ => ⟨S1x224x10000, .f32⟩
  | .local _ .vmem, ⟨3, _⟩ => ⟨S1x224x10000, .f32⟩
  | .local _ .vmem, ⟨4, _⟩ => ⟨S1x224x10000, .f32⟩
  | .local _ .vmem, ⟨5, _⟩ => ⟨S1x224x10000, .f32⟩
  | .local _ .vmem, ⟨6, _⟩ => ⟨S1x128, .f32⟩
  | .local _ .vmem, ⟨7, _⟩ => ⟨S2x224x128, .f32⟩
  | .local _ .vmem, ⟨8, _⟩ => ⟨S2x224x128, .f32⟩
  | .local _ .vmem, ⟨9, _⟩ => ⟨S10000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![23], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x224x10000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x224x10000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2x224x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S10000x10000_S2x5000x10000 : S10000x10000.ShapeCasts S2x5000x10000
  shapeCasts_S128_S1x128 : S128.ShapeCasts S1x128
  shapeCasts_S2x5000x128_S10000x128 : S2x5000x128.ShapeCasts S10000x128
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S1x224x10000_S1x224x10000_0_0_0 : ∀ a, (![0, 0, 0] : Fin 3 → Nat) a + S1x224x10000.size a ≤ S1x224x10000.size a
  h_S1x224x10000 : 0 < S1x224x10000.numel
  shapeCasts_S1x224x10000_S224x10000 : S1x224x10000.ShapeCasts S224x10000
  broadcasts_S1x128_S224x128 : S1x128.Broadcasts S224x128
  inb_S2x224x128_S1x224x128_0_0_0 : ∀ a, (![0, 0, 0] : Fin 3 → Nat) a + S1x224x128.size a ≤ S2x224x128.size a
  h_S1x224x128 : 0 < S1x224x128.numel
  shapeCasts_S1x224x128_S224x128 : S1x224x128.ShapeCasts S224x128
  shapeCasts_S224x128_S1x224x128 : S224x128.ShapeCasts S1x224x128
  inb_S2x224x128_S1x224x128_1_0_0 : ∀ a, (![1, 0, 0] : Fin 3 → Nat) a + S1x224x128.size a ≤ S2x224x128.size a
  dot_S10000x128_S128x128_S10000x128_1_0_0_1_n_n_wf : DotDims.WF S10000x128 S128x128 S10000x128 [1] [0] [0] [1] [] []
  dot_S224x10000_S10000x128_S224x128_1_0_0_1_n_n_wf : DotDims.WF S224x10000 S10000x128 S224x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1x224x10000.size a < S2x5000x10000.size a
  hwx0_2 : ∀ i : grid0.Coords, EltTy.bits .f32 = 32 ∨ (Rect.unit (s := S2x5000x10000) (fun a => cc0_transform_2 i a * S1x224x10000.size a) (fun a => (Pipeline.Clip.of (cc0_transform_2 i a) (S1x224x10000.size a) (S2x5000x10000.size a)).extent (S1x224x10000.size a)) fun a => Pipeline.Clip.inb (Pipeline.Clip.ok_of (hstart0_2 i a))).WholeWords (EltTy.packing .f32)
  hwxs0_2 : ∀ i : grid0.Coords, EltTy.bits .f32 = 32 ∨ (Rect.unit (s := S1x224x10000) (fun _ => 0) (fun a => (Pipeline.Clip.of (cc0_transform_2 i a) (S1x224x10000.size a) (S2x5000x10000.size a)).extent (S1x224x10000.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S1x224x10000.size a < S2x5000x10000.size a
  hwx0_3 : ∀ i : grid0.Coords, EltTy.bits .f32 = 32 ∨ (Rect.unit (s := S2x5000x10000) (fun a => cc0_transform_3 i a * S1x224x10000.size a) (fun a => (Pipeline.Clip.of (cc0_transform_3 i a) (S1x224x10000.size a) (S2x5000x10000.size a)).extent (S1x224x10000.size a)) fun a => Pipeline.Clip.inb (Pipeline.Clip.ok_of (hstart0_3 i a))).WholeWords (EltTy.packing .f32)
  hwxs0_3 : ∀ i : grid0.Coords, EltTy.bits .f32 = 32 ∨ (Rect.unit (s := S1x224x10000) (fun _ => 0) (fun a => (Pipeline.Clip.of (cc0_transform_3 i a) (S1x224x10000.size a) (S2x5000x10000.size a)).extent (S1x224x10000.size a)) fun a => (Nat.zero_add _).trans_le (Pipeline.Clip.extent_le (Pipeline.Clip.ok_of (hstart0_3 i a)))).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hstart0_5 : ∀ (i : grid0.Coords) a, cc0_transform_5 i a * S2x224x128.size a < S2x5000x128.size a
  hwx0_5 : ∀ i : grid0.Coords, EltTy.bits .f32 = 32 ∨ (Rect.unit (s := S2x5000x128) (fun a => cc0_transform_5 i a * S2x224x128.size a) (fun a => (Pipeline.Clip.of (cc0_transform_5 i a) (S2x224x128.size a) (S2x5000x128.size a)).extent (S2x224x128.size a)) fun a => Pipeline.Clip.inb (Pipeline.Clip.ok_of (hstart0_5 i a))).WholeWords (EltTy.packing .f32)
  hwxs0_5 : ∀ i : grid0.Coords, EltTy.bits .f32 = 32 ∨ (Rect.unit (s := S2x224x128) (fun _ => 0) (fun a => (Pipeline.Clip.of (cc0_transform_5 i a) (S2x224x128.size a) (S2x5000x128.size a)).extent (S2x224x128.size a)) fun a => (Nat.zero_add _).trans_le (Pipeline.Clip.extent_le (Pipeline.Clip.ok_of (hstart0_5 i a)))).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S224x10000_S10000x128_S224x128_1_0_0_1_n_n : DotDims S224x10000 S10000x128 S224x128 where
  lhsContracting := [1]
  rhsContracting := [0]
  lhsNonContracting := [0]
  rhsNonContracting := [1]
  lhsBatch := []
  rhsBatch := []
  wf := dot_S224x10000_S10000x128_S224x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpecClip (Memref.whole main_call0_v0) S1x224x10000.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_call0_v0) S1x224x10000.size cc0_transform_3 reads0_3 false false 2 stage0_3 sem0_3
    hrank0 hreads0_3 hstart0_3 nbuf0_3 (Memref.isWhole_whole _) hwx0_3 hwxs0_3 hstage0_3

abbrev win0_4 : Pipeline.Window sig grid0 :=
  Pipeline.Window.ofSpec (Memref.whole main_call0_v1) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpecClip (Memref.whole main_call0_v2) S2x224x128.size cc0_transform_5 reads0_5 true false 2 stage0_5 sem0_5
    hrank0 hreads0_5 hstart0_5 nbuf0_5 (Memref.isWhole_whole _) hwx0_5 hwxs0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S10000x128, .f32⟩
  | .hbm, ⟨5, _⟩ => ⟨S10000x128, .f32⟩
  | .hbm, ⟨6, _⟩ => ⟨S1x128, .f32⟩
  | .hbm, ⟨7, _⟩ => ⟨S10000x128, .f32⟩
  | .hbm, ⟨8, _⟩ => ⟨S10000x128, .f32⟩
  | .hbm, ⟨9, _⟩ => ⟨S_, .f32⟩
  | .hbm, ⟨10, _⟩ => ⟨S10000x128, .f32⟩
  | .hbm, ⟨11, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_cst : Ref sig .tc := ⟨.hbm, 9, rfl⟩
abbrev main_call0_v0 : Ref sig .tc := ⟨.hbm, 10, rfl⟩
abbrev main_v5 : Ref sig .tc := ⟨.hbm, 11, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.KernelLaunch.lean ====
/-
  The launch of the layer's one kernel region, for any float instance and any relational proof data
  whose arrays are the region-entry contents: @main is two reshapes (the adjacency matrix to its two
  row halves, the bias to a row), the kernel region, and one reshape of the result. The two adjacency
  windows read ONE array, so each holds half of its share; the scratch that carries x · W between grid
  points rides in the body's invariant. The run's post: the four arguments unchanged, and the result
  the reshape of whatever the output window's array may hold after the last write-back.
-/
import proofs.«157422_g85813446574119_cont_sun_m_903_13_alg».proof.Proof.Gen.Kernel.Launch
import proofs.«157422_g85813446574119_cont_sun_m_903_13_alg».proof.Proof.Gen.Kernel.Skeleton
import proofs.«157422_g85813446574119_cont_sun_m_903_13_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Launch

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffer contents when the region is entered: after the two reshapes before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The arguments are not written before the region; the two reshaped arrays are the reshapes. -/
theorem V_arg0 (c : Dev nD) : V m c main_arg0 = m ((c : Thread nD τ).loc main_arg0) := by
  dsimp only [V, V0]; simp only [hostOps0, List.flatten_cons, List.flatten_nil, List.append_nil]; after_results
theorem V_arg1 (c : Dev nD) : V m c main_arg1 = m ((c : Thread nD τ).loc main_arg1) := by
  dsimp only [V, V0]; simp only [hostOps0, List.flatten_cons, List.flatten_nil, List.append_nil]; after_results
theorem V_arg2 (c : Dev nD) : V m c main_arg2 = m ((c : Thread nD τ).loc main_arg2) := by
  dsimp only [V, V0]; simp only [hostOps0, List.flatten_cons, List.flatten_nil, List.append_nil]; after_results
theorem V_arg3 (c : Dev nD) : V m c main_arg3 = m ((c : Thread nD τ).loc main_arg3) := by
  dsimp only [V, V0]; simp only [hostOps0, List.flatten_cons, List.flatten_nil, List.append_nil]; after_results
theorem V_adj3 (c : Dev nD) : (V m c main_call0_v0 : S2x5000x10000.Idx → Elt F .f32)
    = shapeCast S2x5000x10000 (m ((c : Thread nD τ).loc main_arg1) : S10000x10000.Idx → Elt F .f32) shapeCasts_S10000x10000_S2x5000x10000 := by
  dsimp only [V, V0]; simp only [hostOps0, List.flatten_cons, List.flatten_nil, List.append_nil]; after_results; rfl
theorem V_bias2 (c : Dev nD) : (V m c main_call0_v1 : S1x128.Idx → Elt F .f32)
    = shapeCast S1x128 (m ((c : Thread nD τ).loc main_arg3) : S128.Idx → Elt F .f32) shapeCasts_S128_S1x128 := by
  dsimp only [V, V0]; simp only [hostOps0, List.flatten_cons, List.flatten_nil, List.append_nil]; after_results; rfl

/-- The reshape after the region, as a function of the output window's array. -/
def reshapeOut (A : S2x5000x128.Idx → Elt F .f32) : S10000x128.Idx → Elt F .f32 :=
  shapeCast S10000x128 A shapeCasts_S2x5000x128_S10000x128

/-- The shares the windows hold their arrays at: the two adjacency windows split their common array's. -/
def qSpec : Fin 6 → PosShare TreeShare := fun
  | 0 => fullShare | 1 => fullShare | 2 => fullShare.left | 3 => fullShare.right | 4 => fullShare | 5 => fullShare
  | ⟨_ + 6, h⟩ => absurd h (Nat.not_lt.2 (Nat.le_add_left _ _))

/-- The two reshapes before the region allocate nothing. -/
theorem hostOps0_fresh : (hostOps0 : List (HloOp τ sig (Elt F))).Forall fun op => op.fresh = ∅ := by
  simp only [List.Forall]; repeat' constructor

/-- @main around the region: it reduces to the region continued by the reshape of the result, at the
    contents after the two reshapes before it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The distinct buffers behind the windows' arrays, each whole at the region-entry contents, make the proof data's
    arrays at entry: the array the two adjacency windows share is split between them along its share
    (`pointsTo_share`), every other array goes to its one window whole. -/
theorem hsplit (rdat : (c : Dev nD) → RDat τ (Elt F) Unit ℕ (UR sig nD τ) ℕ cfg0 c)
    (hq : ∀ c w, (rdat c).q w = qSpec w)
    (hA : ∀ c w, (rdat c).A w = V m c (Pipeline.arrRef spec0 w)) (c : Dev nD) :
    (Pipeline.arrBufs spec0 c (V m c) : sProp 𝕄) ⊢ (rdat c).arrays (rdat c).A := by
  classical
  -- every window holds its array at the share `qSpec` names: the output at the full one by definition
  have hsh : ∀ w, (rdat c).share w = qSpec w := fun w => by
    unfold RDat.share; rw [hq]; fin_cases w <;> rfl
  -- the windows' arrays are whole buffers, at the region-entry contents
  have hR : (rdat c).arrays (rdat c).A = bigSep Finset.univ fun w : Fin 6 =>
      (((c : Thread nD τ).loc (Pipeline.arrRef spec0 w)) ↦{qSpec w} V m c (Pipeline.arrRef spec0 w) : sProp 𝕄) := by
    unfold RDat.arrays
    exact bigSep_congr fun w _ => by rw [(arr_whole0 w).set_eq_univ, hsh, hA]
  -- the five distinct buffers behind the six windows, one by one
  have hL : (Pipeline.arrBufs spec0 c (V m c) : sProp 𝕄)
      = iprop((((c : Thread nD τ).loc main_arg0) ↦{fullShare} V m c main_arg0) ∗ (((c : Thread nD τ).loc main_arg2) ↦{fullShare} V m c main_arg2)
          ∗ (((c : Thread nD τ).loc main_call0_v0) ↦{fullShare} V m c main_call0_v0) ∗ (((c : Thread nD τ).loc main_call0_v1) ↦{fullShare} V m c main_call0_v1)
          ∗ (((c : Thread nD τ).loc main_call0_v2) ↦{fullShare} V m c main_call0_v2)) :=
    bigSep_eq_bigSepL_of_eq [main_arg0, main_arg2, main_call0_v0, main_call0_v1, main_call0_v2] (by decide) (by decide) _
  rw [hR, bigSep_W0, hL]
  iintro ⟨H0, H1, H2, H4, H5⟩
  -- the shared array's points-to splits along its share into the two adjacency windows' halves
  ihave H23 := (pointsTo_share (PosShare.mem_left_op_right fullShare)).1 $$ H2
  icases H23 with ⟨H2, H3⟩
  isplitl [H0]; · iexact H0
  isplitl [H1]; · iexact H1
  isplitl [H2]; · iexact H2
  isplitl [H3]; · iexact H3
  isplitl [H4]; · iexact H4
  iexact H5

end Cert.Kernel.Launch

end
-- ==== Proof.KernelRun.lean ====
/-
  The run of the layer's program from relational proof data: the library's launch of one kernel region
  continued by host operations, given the body obligation. The two reshapes before the region are stepped
  first; the region runs; the reshape of the result reads the output window's array at whatever it then
  holds. The post: the four arguments unchanged, the result the reshape of contents the output array may
  hold after the last write-back.
-/
import proofs.«157422_g85813446574119_cont_sun_m_903_13_alg».proof.Proof.KernelLaunch

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)
open Cert.Kernel Cert.Kernel.Gen Cert.Kernel.Launch

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the reshape of the result hands back beside the arrays: the two arguments no window reads, at the
    region-entry contents, and the result buffer at the reshape of some contents the output window's array may hold
    after the last write-back. -/
def exitRest (rdat : (c : Dev nD) → RDat τ (Elt F) Unit ℕ (UR sig nD τ) ℕ cfg0 c) (c : Dev nD) : sProp 𝕄 :=
  iprop(∃ A5 : S2x5000x128.Idx → Elt F .f32, ⌜(rdat c).ArrAt (5 : Fin 6) cfg0.N A5⌝
    ∗ (((c.tc : Thread nD τ).loc main_arg1) ↦{fullShare} V m c main_arg1)
    ∗ (((c.tc : Thread nD τ).loc main_arg3) ↦{fullShare} V m c main_arg3)
    ∗ (((c.tc : Thread nD τ).loc main_v0) ↦{fullShare} (reshapeOut A5 : S10000x128.Idx → Elt F .f32)))

set_option backward.isDefEq.respectTransparency.types false in
/-- The reshape of the result, run from the region's exit: holding the boundary, the arrays at contents they may
    hold after the last write-back and the three buffers no window reads at the region-entry contents, it reads the
    output window's array — whole, at the full share, at some such contents `A5` — and writes the result buffer,
    which then holds `reshapeOut A5`; the arrays are given back as they were. -/
theorem tail_run (rdat : (c : Dev nD) → RDat τ (Elt F) Unit ℕ (UR sig nD τ) ℕ cfg0 c) (c : Dev nD) (Q' : PUnit → sProp 𝕄) :
    iprop((iprop((rdat c).arraysAt cfg0.N ∗ exitRest m rdat c) -∗ Q' ⟨⟩)
        ∗ boundary (c.tc : Thread nD τ) ∗ (rdat c).arraysAt cfg0.N
        ∗ Pipeline.unscopedRest (Ix := Unit) (Name := ℕ) (U := UR sig nD τ) (Lvl := ℕ) spec0 c (V m c))
      ⊢ wp frame (wpE (Pipeline.defs (pcfgs (F := F)) defs₀) (Variants.lift Variants.none) (c.tc : Thread nD τ) none) Set.univ
          (Pipeline.chain [StableHlo.seq hostOps1]) Q' := by
  classical
  -- the reshape's two buffers are distinct, and held over them is their two points-tos
  have hne : Proc.devRef (τ := τ) .tc main_call0_v2 ≠ Proc.devRef .tc main_v0 := StableHlo.devRef_ne_of_ne (by decide)
  have hheld : ∀ W : Valuation τ sig (Elt F),
      (StableHlo.held (c.tc : Thread nD τ) {Proc.devRef .tc main_call0_v2, Proc.devRef .tc main_v0} W : sProp 𝕄)
      = iprop((((c.tc : Thread nD τ).loc main_call0_v2) ↦{fullShare} W (Proc.devRef .tc main_call0_v2))
          ∗ (((c.tc : Thread nD τ).loc main_v0) ↦{fullShare} W (Proc.devRef .tc main_v0))) := fun W => by
    unfold StableHlo.held
    rw [BI.bigSep_insert (Finset.notMem_singleton.mpr hne), BI.bigSep_singleton]
    rfl
  -- the line is the one reshape: it touches these two buffers and determines what it writes
  have hsub : ∀ ops ∈ [hostOps1 (F := F)], ∀ op ∈ ops,
      op.bufs ⊆ ({Proc.devRef .tc main_call0_v2, Proc.devRef .tc main_v0} : Finset (DevRef τ sig)) := by
    intro ops hops op hop
    obtain rfl := List.mem_singleton.mp hops
    obtain rfl := List.mem_singleton.mp hop
    exact subset_refl _
  have hfresh : ∀ ops ∈ [hostOps1 (F := F)], ∀ op ∈ ops, op.fresh = ∅ := by
    intro ops hops op hop
    obtain rfl := List.mem_singleton.mp hops
    obtain rfl := List.mem_singleton.mp hop
    rfl
  -- the output window holds its array whole, at the full share
  have hshare : (rdat c).share (5 : Fin 6) = fullShare := if_pos rfl
  have e5 : ∀ A : Buf (Elt F) ((cfg0.win 5).arr.view.loc (c.tc : Thread nD τ)),
      (iprop((cfg0.win 5).arr.view.loc (c.tc : Thread nD τ) ↦[(cfg0.win 5).arr.view.set]{(rdat c).share 5} A) : sProp 𝕄)
        = iprop(((c.tc : Thread nD τ).loc main_call0_v2) ↦{fullShare} A) := fun A => by
    rw [hshare, (Gen.arr_whole0 5).set_eq_univ]
  unfold RDat.arraysAt exitRest
  rw [Gen.bigSep_W0, Gen.unscopedRest0_eq,
    show (Pipeline.chain [StableHlo.seq (hostOps1 (F := F))]
        : Prog (TpuEff nD τ sig (Elt F) (Pipeline.Sig Λ₀ (Fin 1) fun p => (pcfgs (F := F) p).Adm) .tc) PUnit)
      = Pipeline.chain ([hostOps1 (F := F)].map StableHlo.seq ++ []) from rfl]
  iintro ⟨Hk, Hb, ⟨Ha0, Ha1, Ha2, Ha3, Ha4, Ha5⟩, H1, H3, H0⟩
  icases Ha5 with ⟨%A5, %hA5, Ha5⟩
  ihave Ha5 := (Entails.of_eq (e5 A5)) $$ Ha5
  -- the core's contents at the region's exit, as far as the reshape reads them: the output array at `A5`
  obtain ⟨W, hW2, hW0⟩ : ∃ W : Valuation τ sig (Elt F),
      W (Proc.devRef .tc main_call0_v2) = A5 ∧ W (Proc.devRef .tc main_v0) = V m c main_v0 :=
    ⟨Function.update (V0 m c) (Proc.devRef .tc main_call0_v2) A5, Function.update_self _ _ _, Function.update_of_ne hne.symm _ _⟩
  -- after the reshape the array is as it was and the result buffer holds its reshape
  have hafter2 : StableHlo.after (List.flatten [hostOps1 (F := F)]) W (Proc.devRef .tc main_call0_v2) = A5 := by
    rw [StableHlo.after_of_forall_not_mem _ _ fun op hop hw => ?_, hW2]
    obtain rfl := List.mem_singleton.mp hop
    exact hne (Finset.mem_singleton.mp hw)
  have hafter0 : (StableHlo.after (List.flatten [hostOps1 (F := F)]) W (Proc.devRef .tc main_v0) : S10000x128.Idx → Elt F .f32)
      = reshapeOut A5 := by
    have h : (StableHlo.after (List.flatten [hostOps1 (F := F)]) W (Proc.devRef .tc main_v0) : S10000x128.Idx → Elt F .f32)
        = reshapeOut (W (Proc.devRef .tc main_call0_v2)) := by
      simp only [List.flatten_cons, List.flatten_nil, List.append_nil, StableHlo.after_cons, StableHlo.after_nil]
      rw [StableHlo.reshape_result]
      rfl
    rw [h, hW2]
  iapply (Pipeline.wp_seqs_then (pcfgs (F := F)) defs₀ Variants.none c
    {Proc.devRef .tc main_call0_v2, Proc.devRef .tc main_v0} [] [hostOps1 (F := F)] hsub hfresh W) $$ [Hb Ha5 H0]
  · isplitl [Hb]
    · iexact Hb
    rw [hheld, hW2, hW0]
    isplitl [Ha5]
    · iexact Ha5
    · iexact H0
  iintro Hbh
  rw [Pipeline.chain_nil, wp_pure, hheld, hafter2, hafter0]
  imodintro
  icases Hbh with ⟨-, Ha5, H0⟩
  iapply Hk
  isplitl [Ha0 Ha1 Ha2 Ha3 Ha4 Ha5]
  · isplitl [Ha0]
    · iexact Ha0
    isplitl [Ha1]
    · iexact Ha1
    isplitl [Ha2]
    · iexact Ha2
    isplitl [Ha3]
    · iexact Ha3
    isplitl [Ha4]
    · iexact Ha4
    iexists A5
    isplitr
    · ipureintro; exact hA5
    iapply (Entails.of_eq (e5 A5).symm)
    iexact Ha5
  · iexists A5
    isplitr
    · ipureintro; exact hA5
    isplitl [H1]
    · iexact H1
    isplitl [H3]
    · iexact H3
    iexact H0

/-- THE RUN. For relational proof data over the region-entry arrays (`hA`), at the shares `qSpec`, owing nothing,
    whose invariant is entered from and gives back the core's scratch buffer at some contents: every weakly fair
    execution of @main terminates; the result holds the reshape of some contents the output window's array may hold
    after the last write-back, and the four arguments hold what they held. -/
theorem frame_run (rdat : (c : Dev nD) → RDat τ (Elt F) Unit ℕ (UR sig nD τ) ℕ cfg0 c)
    (hbody : ∀ c, (rdat c).BodyObligation (defs₀ (F := F)) Variants.none () Set.univ)
    (hq : ∀ c w, (rdat c).q w = qSpec w)
    (howed : ∀ c t, (rdat c).owed t = 0)
    (hA : ∀ c w, (rdat c).A w = V m c (Pipeline.arrRef spec0 w))
    (hin : ∀ c, (Pipeline.scopedRest spec0 c : sProp 𝕄) ⊢ (rdat c).Φ 0)
    (hout : ∀ c, (rdat c).Φ (Fin.last cfg0.N) ⊢ (Pipeline.scopedRest spec0 c : sProp 𝕄)) :
    θ_run defs (onTc (τ := τ) (main (F := F))) ⟨m, fun _ => 0, ρ⟩ (fun r => ∀ c : Dev nD,
      (∃ A5 : S2x5000x128.Idx → Elt F .f32, (rdat c).ArrAt (5 : Fin 6) cfg0.N A5
        ∧ (r.2.mem ((c.tc : Thread nD τ).loc main_v0) : S10000x128.Idx → Elt F .f32) = reshapeOut A5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  classical
  exact RDat.θ_run_region_pf_tail (pcfgs (F := F)) (fun p => (cfgs p).toPCfg_adm (Val := Elt F)) (fun _ => rdat) () Gen.cellOf_inj 0
    Gen.winFacts₀0 (Pipeline.OwnSemFacts.none _) (Pipeline.PreFacts.none _) emb₁ defs₀ Variants.none m ρ main
    (fun _ => Pipeline.chain [StableHlo.seq hostOps1]) hbody Gen.block_pos0 Gen.arr_whole0 Gen.stage_whole0 howed
    (G := fun _ => iprop(emp))
    (u₀ := initOf (Pipeline.cells (Pipeline.pin (pcfgs (F := F)) (fun p => (cfgs p).toPCfg_adm (Val := Elt F))) Gen.cellOf_inj)
      (Pipeline.launchToks (Pipeline.pin (pcfgs (F := F)) (fun p => (cfgs p).toPCfg_adm (Val := Elt F))) Gen.cellOf_inj))
    (hu₀ := by
      iintro Hu; imodintro
      isplitl [Hu]
      · iapply (show (ownU _ : sProp 𝕄) ⊢ BI.own (emb₁ (initOf
            (Pipeline.cells (Pipeline.pin (pcfgs (F := F)) (fun p => (cfgs p).toPCfg_adm (Val := Elt F))) Gen.cellOf_inj)
            (Pipeline.launchToks (Pipeline.pin (pcfgs (F := F)) (fun p => (cfgs p).toPCfg_adm (Val := Elt F))) Gen.cellOf_inj))) from .rfl)
        iexact Hu
      · iapply (show (BI.emp : sProp 𝕄) ⊢ bigSep Finset.univ (fun _ : Dev nD => (BI.emp : sProp 𝕄)) from by rw [BI.bigSep_emp_const])
        iempintro)
    (V := V m) (hmain := Launch.hmain m Variants.none)
    (hsplit := fun c => Launch.hsplit m rdat hq hA c)
    (hpf := fun _ k => k.elim0)
    (X := fun _ => iprop(emp)) (Y := fun _ => iprop(emp))
    (Z := fun c => Pipeline.unscopedRest (Ix := Unit) (Name := ℕ) (U := UR sig nD τ) (Lvl := ℕ) spec0 c (V m c))
    (Z' := fun c => exitRest m rdat c)
    (hX := fun c => by
      rw [Pipeline.unscopedRestP_none]
      iintro ⟨HU, -, -, -, -, -⟩; imodintro
      isplitr
      · iempintro
      · iexact HU)
    (hin := fun c => (show _ ⊢ (Pipeline.scopedRest spec0 c : sProp 𝕄) from by iintro ⟨-, -, HR⟩; iexact HR).trans (hin c))
    (hout := fun c => (hout c).trans (by
      rw [Pipeline.ownSems0_none]
      iintro HR
      isplitr
      · iempintro
      isplitr
      · iempintro
      · iexact HR))
    (htail := fun c Q' => tail_run m rdat c Q')
    (QY := fun c s => (∃ A5 : S2x5000x128.Idx → Elt F .f32, (rdat c).ArrAt (5 : Fin 6) cfg0.N A5
        ∧ (s.mem ((c.tc : Thread nD τ).loc main_v0) : S10000x128.Idx → Elt F .f32) = reshapeOut A5)
      ∧ s.mem ((c.tc : Thread nD τ).loc main_arg1) = V m c main_arg1
      ∧ s.mem ((c.tc : Thread nD τ).loc main_arg3) = V m c main_arg3)
    (hY := fun c s' => by
      unfold exitRest
      iintro ⟨-, HZ, HSI⟩
      icases HZ with ⟨%A5, %hA5, H1, H3, H0⟩
      icombine HSI H1 gives %h1
      icombine HSI H3 gives %h3
      icombine HSI H0 gives %h0
      imodintro
      isplitr
      · ipureintro
        exact ⟨⟨A5, hA5, Buf.eq_of_forall_mem_univ h0⟩, Buf.eq_of_forall_mem_univ h1, Buf.eq_of_forall_mem_univ h3⟩
      · iexact HSI)
    (hQ := fun s h c => by
      obtain ⟨harr, -, hA5, h1, h3⟩ := h c
      have h0 := harr (0 : Fin 6)
      have h2 := harr (1 : Fin 6)
      rw [RDat.ArrAt_in (rdat c) (0 : Fin 6) rfl] at h0
      rw [RDat.ArrAt_in (rdat c) (1 : Fin 6) rfl] at h2
      refine ⟨hA5, ?_, ?_, ?_, ?_⟩
      · exact h0.trans ((hA c 0).trans (Launch.V_arg0 m c))
      · exact h1.trans (Launch.V_arg1 m c)
      · exact h2.trans ((hA c 1).trans (Launch.V_arg2 m c))
      · exact h3.trans (Launch.V_arg3 m c))

end Cert.Kernel.Run

end
-- ==== Proof.KernelBody.lean ====
/-
  The kernel body of the graph-convolution layer, run once per grid point on whole staging buffers.
  At the first grid point the body first stores the product x · W into the scratch buffer; at every
  point it reads the scratch (the support matrix S), the bias row and the two 224-row blocks of the
  adjacency matrix (one from each half), and stores max(block · S + bias, 0) into the two halves
  of the output tile. Stated for any float instance.
-/
import proofs.«157422_g85813446574119_cont_sun_m_903_13_alg».proof.Proof.Gen.Kernel.Launch
import proofs.«157422_g85813446574119_cont_sun_m_903_13_alg».proof.Proof.Gen.Kernel.Skeleton
import proofs.«157422_g85813446574119_cont_sun_m_903_13_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.ValueIdx
import Idealize.ShloMosaic.Lib.Pipeline.Value

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)
open Cert.Kernel Cert.Kernel.Gen

variable {F : FTy → Type} [FloatOps F]

local notation "𝕄" => MT nD τ sig Unit (Elt F) ℕ (UR sig nD τ) ℕ

/-- The body's one branch: taken exactly when the grid coordinate is zero. -/
abbrev cond0 (i : grid0.Coords) : Prop :=
  (Scalar.cmpi .ne (Scalar.extui (Scalar.cmpi .eq (BitVec.ofNat 32 (i 0).val) 0#32)) 0#32) = 1#1

/-- Over the 23 grid points the branch is taken at the first point only. -/
theorem hcond0 : ∀ t : Fin cfg0.N, cond0 (grid0.coords t) ↔ t.val = 0 :=
  (by decide +kernel : ∀ t : Fin grid0.N, cond0 (grid0.coords t) ↔ t.val = 0)

/-- The output tile [2, 224, 128] the body leaves: half 0 is max(top · S + bias, 0) and half 1 is
    max(bot · S + bias, 0), for S the support matrix, top / bot the two adjacency blocks. -/
def outTile (s : Vec F S10000x128 .f32) (b : Vec F S1x128 .f32) (top bot : Vec F S1x224x10000 .f32) : Vec F S2x224x128 .f32 :=
  fun j => if (j 0).val = 0 then k0_pay3 s b top (ValueIdx.ix3 (0 : Fin 1) (j 1) (j 2))
           else k0_pay4 s b bot (ValueIdx.ix3 (0 : Fin 1) (j 1) (j 2))

/-- The output tile after the two half-tile stores, whatever it held before: every index lies in exactly one
    of the two rectangles (first coordinate 0 or 1), so the tile reads the first payload on half 0 and the
    second on half 1, each at the remaining two coordinates. -/
theorem read_halves (v : View sig .tc .vmem S2x224x128 .f32) (f : v.ty.Contents (Elt F))
    (inb0 : ∀ a, (![0, 0, 0] : Fin 3 → Nat) a + S1x224x128.size a ≤ S2x224x128.size a)
    (inb1 : ∀ a, (![1, 0, 0] : Fin 3 → Nat) a + S1x224x128.size a ≤ S2x224x128.size a)
    (p3 p4 : S1x224x128.Idx → Elt F .f32) :
    v.read (Elt F) (v.writes (Elt F) f
        [⟨Rect.unit ![1, 0, 0] S1x224x128.size inb1, p4⟩, ⟨Rect.unit ![0, 0, 0] S1x224x128.size inb0, p3⟩])
      = fun j => if (j 0).val = 0 then p3 (ValueIdx.ix3 (0 : Fin 1) (j 1) (j 2))
                 else p4 (ValueIdx.ix3 (0 : Fin 1) (j 1) (j 2)) := by
  funext j
  have hlt : (j 0).val < 2 := (j 0).isLt
  by_cases h : (j 0).val = 0
  · rw [if_pos h]
    -- j is the image of (0, j 1, j 2) under the first rectangle
    have hj : (Rect.unit (s := S2x224x128) ![0, 0, 0] S1x224x128.size inb0).emb (ValueIdx.ix3 (0 : Fin 1) (j 1) (j 2)) = j := by
      funext (a : Fin 3); apply Fin.ext
      match a with
      | ⟨0, _⟩ => show 0 + 1 * 0 = (j 0).val; omega
      | ⟨1, _⟩ => show 0 + 1 * (j 1).val = (j 1).val; omega
      | ⟨2, _⟩ => show 0 + 1 * (j 2).val = (j 2).val; omega
    have key := View.read_writes_of_unique v f
      (⟨Rect.unit (s := S2x224x128) ![0, 0, 0] S1x224x128.size inb0, p3⟩ : View.Piece (Elt F) S2x224x128 .f32)
      (ValueIdx.ix3 (0 : Fin 1) (j 1) (j 2))
      [⟨Rect.unit ![1, 0, 0] S1x224x128.size inb1, p4⟩, ⟨Rect.unit ![0, 0, 0] S1x224x128.size inb0, p3⟩]
      (List.mem_cons_of_mem _ List.mem_cons_self)
      (fun q hq hm => by
        rcases List.mem_cons.mp hq with rfl | hq
        · -- the second rectangle starts at first coordinate 1
          have hm' : (Rect.unit (s := S2x224x128) ![0, 0, 0] S1x224x128.size inb0).emb (ValueIdx.ix3 (0 : Fin 1) (j 1) (j 2))
              ∈ (Rect.unit (s := S2x224x128) ![1, 0, 0] S1x224x128.size inb1).set := hm
          have h0 := (Rect.mem_set_unit.mp hm' (0 : Fin 3)).1
          have h0' : 1 ≤ 0 + 1 * 0 := h0
          omega
        · exact List.mem_singleton.mp hq)
    rw [hj] at key
    exact key
  · rw [if_neg h]
    have hj : (Rect.unit (s := S2x224x128) ![1, 0, 0] S1x224x128.size inb1).emb (ValueIdx.ix3 (0 : Fin 1) (j 1) (j 2)) = j := by
      funext (a : Fin 3); apply Fin.ext
      match a with
      | ⟨0, _⟩ => show 1 + 1 * 0 = (j 0).val; omega
      | ⟨1, _⟩ => show 0 + 1 * (j 1).val = (j 1).val; omega
      | ⟨2, _⟩ => show 0 + 1 * (j 2).val = (j 2).val; omega
    have key := View.read_writes_of_unique v f
      (⟨Rect.unit (s := S2x224x128) ![1, 0, 0] S1x224x128.size inb1, p4⟩ : View.Piece (Elt F) S2x224x128 .f32)
      (ValueIdx.ix3 (0 : Fin 1) (j 1) (j 2))
      [⟨Rect.unit ![1, 0, 0] S1x224x128.size inb1, p4⟩, ⟨Rect.unit ![0, 0, 0] S1x224x128.size inb0, p3⟩]
      List.mem_cons_self
      (fun q hq hm => by
        rcases List.mem_cons.mp hq with rfl | hq
        · rfl
        · -- the first rectangle ends below first coordinate 1
          obtain rfl := List.mem_singleton.mp hq
          have hm' : (Rect.unit (s := S2x224x128) ![1, 0, 0] S1x224x128.size inb1).emb (ValueIdx.ix3 (0 : Fin 1) (j 1) (j 2))
              ∈ (Rect.unit (s := S2x224x128) ![0, 0, 0] S1x224x128.size inb0).set := hm
          have h0 := (Rect.mem_set_unit.mp hm' (0 : Fin 3)).2
          have h0' : 1 + 1 * 0 < 0 + 1 := h0
          omega)
    rw [hj] at key
    exact key

/-- A load of a whole buffer, held at the contents that read `x`, through the whole-shape rectangle at zero
    offsets returns `x`. -/
theorem readAt_whole {S : Shape} (m : Memref sig .tc .vmem S .f32) (hm : m.IsWhole) {off : Fin S.rank → Nat}
    (hz : off = fun _ => 0) (inb : ∀ a, off a + S.size a ≤ S.size a) (x : S.Idx → Elt F .f32) :
    View.readAt (Elt F) m.view (Rect.unit off S.size inb).toLoadRect (hm.unread x) = x := by
  rw [View.readAt_eq_ld, hm.read_unread, View.ld_unit_zero hz]

/-- One store of a payload through the whole-shape rectangle at zero offsets leaves the buffer reading that
    payload, whatever it held before. -/
theorem read_writes_whole {S : Shape} (v : View sig .tc .vmem S .f32) (f : v.ty.Contents (Elt F))
    {off : Fin S.rank → Nat} (hz : off = fun _ => 0) (inb : ∀ a, off a + S.size a ≤ S.size a)
    (w : S.Idx → Elt F .f32) :
    v.read (Elt F) (v.writes (Elt F) f [(⟨Rect.unit off S.size inb, w⟩ : View.Piece (Elt F) S .f32)]) = w := by
  rw [View.read_writes_eq_canon v f _ (fun y => ⟨_, List.mem_singleton_self _, View.mem_set_unit_zero hz inb y⟩),
    View.canon_unit_zero hz]

/-- The body at the first grid point: the scratch ends at x · W, the output tile at `outTile` of it; the
    input buffers are left as found. -/
theorem run_first (c : Dev nD) (i : grid0.Coords)
    (arg1 : Memref sig .tc .vmem S10000x128 .f32) (harg1 : arg1.IsWhole) (arg2 : Memref sig .tc .vmem S128x128 .f32) (harg2 : arg2.IsWhole)
    (arg3 : Memref sig .tc .vmem S1x224x10000 .f32) (harg3 : arg3.IsWhole) (arg4 : Memref sig .tc .vmem S1x224x10000 .f32) (harg4 : arg4.IsWhole)
    (arg5 : Memref sig .tc .vmem S1x128 .f32) (harg5 : arg5.IsWhole) (arg6 : Memref sig .tc .vmem S2x224x128 .f32) (harg6 : arg6.IsWhole)
    (arg7 : Memref sig .tc .vmem S10000x128 .f32) (harg7 : arg7.IsWhole) (hc : cond0 i)
    (x1 : Vec F S10000x128 .f32) (x2 : Vec F S128x128 .f32) (x3 x4 : Vec F S1x224x10000 .f32) (x5 : Vec F S1x128 .f32)
    (E : Set ℕ) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5
        ∗ (∃ d, owns (c : Thread nD τ) arg6 fullShare d) ∗ (∃ d, owns (c : Thread nD τ) arg7 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5
            ∗ owns (c : Thread nD τ) arg6 fullShare (outTile (k0_pay1 x1 x2) x5 x3 x4)
            ∗ owns (c : Thread nD τ) arg7 fullShare (k0_pay1 x1 x2)) -∗ K ⟨⟩))
      ⊢ wp frame (wpE (defs₀ (F := F)) Variants.none c none) E
          (cc0__gcn_block_kernel i arg1 harg1 arg2 harg2 arg3 harg3 arg4 harg4 arg5 harg5 arg6 harg6 arg7 harg7) K := by
  have hz2 : (![0, 0] : Fin 2 → Nat) = fun _ => 0 := funext fun a => by fin_cases a <;> rfl
  have hz3 : (![0, 0, 0] : Fin 3 → Nat) = fun _ => 0 := funext fun a => by fin_cases a <;> rfl
  simp only [cc0__gcn_block_kernel_eq_skeleton]; unfold cc0__gcn_block_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, %hf6, H6⟩, ⟨%d7, %f7, %hf7, H7⟩, Hk⟩
  obtain rfl := harg1.eq_unread hf1; obtain rfl := harg2.eq_unread hf2; obtain rfl := harg3.eq_unread hf3
  obtain rfl := harg4.eq_unread hf4; obtain rfl := harg5.eq_unread hf5
  -- the branch is taken: x and W are loaded, x · W is stored whole into the scratch; then as at every point
  sl_exec (disch := exact hc)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap
    · iexact H6
    · -- the scratch read back after its whole store is the stored product; the rest as at a later point
      ipureintro
      sl_unfold_words
      rw [read_halves, View.readCov_unit_zero _ hz2, readAt_whole arg1 harg1 hz2, readAt_whole arg2 harg2 hz2,
        readAt_whole arg5 harg5 hz2, readAt_whole arg3 harg3 hz3, readAt_whole arg4 harg4 hz3]
      rfl
  · iexists _; isplitr
    swap
    · iexact H7
    · -- the scratch after its one whole store reads the stored product
      ipureintro
      sl_unfold_words
      rw [read_writes_whole _ _ hz2, readAt_whole arg1 harg1 hz2, readAt_whole arg2 harg2 hz2]

/-- The body at a later grid point: the scratch is read and left as found (`xs`), the output tile ends at
    `outTile` of it; the input buffers are left as found. -/
theorem run_rest (c : Dev nD) (i : grid0.Coords)
    (arg1 : Memref sig .tc .vmem S10000x128 .f32) (harg1 : arg1.IsWhole) (arg2 : Memref sig .tc .vmem S128x128 .f32) (harg2 : arg2.IsWhole)
    (arg3 : Memref sig .tc .vmem S1x224x10000 .f32) (harg3 : arg3.IsWhole) (arg4 : Memref sig .tc .vmem S1x224x10000 .f32) (harg4 : arg4.IsWhole)
    (arg5 : Memref sig .tc .vmem S1x128 .f32) (harg5 : arg5.IsWhole) (arg6 : Memref sig .tc .vmem S2x224x128 .f32) (harg6 : arg6.IsWhole)
    (arg7 : Memref sig .tc .vmem S10000x128 .f32) (harg7 : arg7.IsWhole) (hc : ¬cond0 i)
    (x1 : Vec F S10000x128 .f32) (x2 : Vec F S128x128 .f32) (x3 x4 : Vec F S1x224x10000 .f32) (x5 : Vec F S1x128 .f32)
    (xs : Vec F S10000x128 .f32)
    (E : Set ℕ) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5
        ∗ (∃ d, owns (c : Thread nD τ) arg6 fullShare d) ∗ owns (c : Thread nD τ) arg7 fullShare xs
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5
            ∗ owns (c : Thread nD τ) arg6 fullShare (outTile xs x5 x3 x4)
            ∗ owns (c : Thread nD τ) arg7 fullShare xs) -∗ K ⟨⟩))
      ⊢ wp frame (wpE (defs₀ (F := F)) Variants.none c none) E
          (cc0__gcn_block_kernel i arg1 harg1 arg2 harg2 arg3 harg3 arg4 harg4 arg5 harg5 arg6 harg6 arg7 harg7) K := by
  have hz2 : (![0, 0] : Fin 2 → Nat) = fun _ => 0 := funext fun a => by fin_cases a <;> rfl
  have hz3 : (![0, 0, 0] : Fin 3 → Nat) = fun _ => 0 := funext fun a => by fin_cases a <;> rfl
  simp only [cc0__gcn_block_kernel_eq_skeleton]; unfold cc0__gcn_block_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, %hf6, H6⟩, ⟨%f7, %hf7, H7⟩, Hk⟩
  obtain rfl := harg1.eq_unread hf1; obtain rfl := harg2.eq_unread hf2; obtain rfl := harg3.eq_unread hf3
  obtain rfl := harg4.eq_unread hf4; obtain rfl := harg5.eq_unread hf5; obtain rfl := harg7.eq_unread hf7
  -- the branch is not taken; the four loads and the two half-tile stores run
  sl_exec (disch := exact hc)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap
    · iexact H6
    · -- the tile after the two stores, with every whole-buffer load read as the buffer's contents
      ipureintro
      rw [read_halves, readAt_whole arg7 harg7 hz2, readAt_whole arg5 harg5 hz2, readAt_whole arg3 harg3 hz3,
        readAt_whole arg4 harg4 hz3]
      rfl
  · iexists _; isplitr; · ipureintro; exact harg7.read_unread _
    iexact H7

end Cert.Kernel.Body

end
-- ==== Proof.KernelFrame.lean ====
/-
  The frame of the layer's program at any float instance: it runs to the end, faults nowhere and leaves
  its four arguments unchanged. A frame says nothing of what the kernel computes, so the proof data
  constrain nothing: every window's relation between what the body is handed and what it leaves is
  `True`, and the invariant between grid points is only that the core still holds its scratch buffer
  at some contents. The body obligation is then that the body runs from any contents: at the first grid
  point it stores into the scratch and reads it back, at the later points it reads what is there.
-/
import proofs.«157422_g85813446574119_cont_sun_m_903_13_alg».proof.Proof.KernelRun
import proofs.«157422_g85813446574119_cont_sun_m_903_13_alg».proof.Proof.KernelBody

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)
open Cert.Kernel Cert.Kernel.Gen Cert.Kernel.Launch Cert.Kernel.Body

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data that constrain nothing: arrays at the region-entry contents, every relation `True`, the
    invariant the scratch buffer at some contents. -/
def rdatT (c : Dev nD) : RDat τ (Elt F) Unit ℕ (UR sig nD τ) ℕ cfg0 c where
  A w := V m c (Pipeline.arrRef spec0 w)
  after _ _ _ _ := True
  Φ _ := Pipeline.scopedRest spec0 c
  q := qSpec
  owed _ := 0

/-- The scratch buffer as a memref owned at some contents. -/
theorem scopedRest_owns (c : Dev nD) :
    (Pipeline.scopedRest spec0 c : sProp 𝕄)
      = iprop(∃ d, owns (c : Thread nD τ) (Memref.whole cc0_scratch0 : Memref sig .tc .vmem S10000x128 .f32) fullShare d) := by
  rw [scopedRest0_eq]; simp only [owns_whole]; try rfl

/-- The body obligation: from any contents of the six current staging buffers and of the scratch, the body runs
    and hands all of them back at some contents. -/
theorem body_obligation (c : Dev nD) : (rdatT (F := F) m c).BodyObligation (defs₀ (F := F)) Variants.none () Set.univ := fun t Y _ => by
  rw [bigSep_W0, bigSep_W0]
  show iprop(Pipeline.scopedRest spec0 c ∗ (rdatT (F := F) m c).owesAt () t.castSucc ∗ _) ⊢ wp frame (wpE (defs₀ (F := F)) Variants.none c none) Set.univ (bodyAt0 t) (fun _ => iprop(Pipeline.scopedRest spec0 c ∗ (rdatT (F := F) m c).owesAt () t.castSucc ∗ _))
  rw [scopedRest_owns]
  iintro ⟨⟨%d7, H7⟩, Ho, H0, H1, H2, H3, H4, H5⟩
  by_cases ht : t.val = 0
  · iapply (run_first (F := F) c (grid0.coords t) _ _ _ _ _ _ _ _ _ _ _ _ _ _ ((hcond0 t).mpr ht) (Y 0) (Y 1) (Y 2) (Y 3) (Y 4) Set.univ _)
    isplitl [H0]; · iexact H0
    isplitl [H1]; · iexact H1
    isplitl [H2]; · iexact H2
    isplitl [H3]; · iexact H3
    isplitl [H4]; · iexact H4
    isplitl [H5]; · iexists _; iexact H5
    isplitl [H7]; · iexists _; iexact H7
    iintro ⟨H0, H1, H2, H3, H4, H5, H7⟩
    isplitl [H7]; · iexists _; iexact H7
    isplitl [Ho]; · iexact Ho
    isplitl [H0]
    · iexists (Y 0); isplitr
      · ipureintro; trivial
      · iexact H0
    isplitl [H1]
    · iexists (Y 1); isplitr
      · ipureintro; trivial
      · iexact H1
    isplitl [H2]
    · iexists (Y 2); isplitr
      · ipureintro; trivial
      · iexact H2
    isplitl [H3]
    · iexists (Y 3); isplitr
      · ipureintro; trivial
      · iexact H3
    isplitl [H4]
    · iexists (Y 4); isplitr
      · ipureintro; trivial
      · iexact H4
    · iexists (outTile (k0_pay1 (Y 0) (Y 1)) (Y 4) (Y 2) (Y 3)); isplitr
      · ipureintro; trivial
      · iexact H5
  · iapply (run_rest (F := F) c (grid0.coords t) _ _ _ _ _ _ _ _ _ _ _ _ _ _ (fun h => ht ((hcond0 t).mp h)) (Y 0) (Y 1) (Y 2) (Y 3) (Y 4) d7 Set.univ _)
    isplitl [H0]; · iexact H0
    isplitl [H1]; · iexact H1
    isplitl [H2]; · iexact H2
    isplitl [H3]; · iexact H3
    isplitl [H4]; · iexact H4
    isplitl [H5]; · iexists _; iexact H5
    isplitl [H7]; · iexact H7
    iintro ⟨H0, H1, H2, H3, H4, H5, H7⟩
    isplitl [H7]; · iexists _; iexact H7
    isplitl [Ho]; · iexact Ho
    isplitl [H0]
    · iexists (Y 0); isplitr
      · ipureintro; trivial
      · iexact H0
    isplitl [H1]
    · iexists (Y 1); isplitr
      · ipureintro; trivial
      · iexact H1
    isplitl [H2]
    · iexists (Y 2); isplitr
      · ipureintro; trivial
      · iexact H2
    isplitl [H3]
    · iexists (Y 3); isplitr
      · ipureintro; trivial
      · iexact H3
    isplitl [H4]
    · iexists (Y 4); isplitr
      · ipureintro; trivial
      · iexact H4
    · iexists (outTile d7 (Y 4) (Y 2) (Y 3)); isplitr
      · ipureintro; trivial
      · iexact H5

/-- THE FRAME at any float instance: every weakly fair execution of @main terminates, nothing faults, and the
    four arguments end unchanged. -/
theorem frame_any : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2)
    (Cert.Kernel.Run.frame_run (F := F) m ρ (rdatT m) (body_obligation m) (fun _ _ => rfl) (fun _ _ => rfl) (fun _ _ => rfl)
      (fun _ => BI.Entails.refl _) (fun _ => BI.Entails.refl _))

end Cert.Kernel.Frame

end
-- ==== Proof.KernelIdealLaunch.lean ====
/-
  The launch of the layer's one kernel region, for any float instance and any relational proof data
  whose arrays are the region-entry contents: @main is two reshapes (the adjacency matrix to its two
  row halves, the bias to a row), the kernel region, and one reshape of the result. The two adjacency
  windows read ONE array, so each holds half of its share; the scratch that carries x · W between grid
  points rides in the body's invariant. The run's post: the four arguments unchanged, and the result
  the reshape of whatever the output window's array may hold after the last write-back.
-/
import proofs.«157422_g85813446574119_cont_sun_m_903_13_alg».proof.Proof.Gen.KernelIdeal.Launch
import proofs.«157422_g85813446574119_cont_sun_m_903_13_alg».proof.Proof.Gen.KernelIdeal.Skeleton
import proofs.«157422_g85813446574119_cont_sun_m_903_13_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Launch

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffer contents when the region is entered: after the two reshapes before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The arguments are not written before the region; the two reshaped arrays are the reshapes. -/
theorem V_arg0 (c : Dev nD) : V m c main_arg0 = m ((c : Thread nD τ).loc main_arg0) := by
  dsimp only [V, V0]; simp only [hostOps0, List.flatten_cons, List.flatten_nil, List.append_nil]; after_results
theorem V_arg1 (c : Dev nD) : V m c main_arg1 = m ((c : Thread nD τ).loc main_arg1) := by
  dsimp only [V, V0]; simp only [hostOps0, List.flatten_cons, List.flatten_nil, List.append_nil]; after_results
theorem V_arg2 (c : Dev nD) : V m c main_arg2 = m ((c : Thread nD τ).loc main_arg2) := by
  dsimp only [V, V0]; simp only [hostOps0, List.flatten_cons, List.flatten_nil, List.append_nil]; after_results
theorem V_arg3 (c : Dev nD) : V m c main_arg3 = m ((c : Thread nD τ).loc main_arg3) := by
  dsimp only [V, V0]; simp only [hostOps0, List.flatten_cons, List.flatten_nil, List.append_nil]; after_results
theorem V_adj3 (c : Dev nD) : (V m c main_call0_v0 : S2x5000x10000.Idx → Elt F .f32)
    = shapeCast S2x5000x10000 (m ((c : Thread nD τ).loc main_arg1) : S10000x10000.Idx → Elt F .f32) shapeCasts_S10000x10000_S2x5000x10000 := by
  dsimp only [V, V0]; simp only [hostOps0, List.flatten_cons, List.flatten_nil, List.append_nil]; after_results; rfl
theorem V_bias2 (c : Dev nD) : (V m c main_call0_v1 : S1x128.Idx → Elt F .f32)
    = shapeCast S1x128 (m ((c : Thread nD τ).loc main_arg3) : S128.Idx → Elt F .f32) shapeCasts_S128_S1x128 := by
  dsimp only [V, V0]; simp only [hostOps0, List.flatten_cons, List.flatten_nil, List.append_nil]; after_results; rfl

/-- The reshape after the region, as a function of the output window's array. -/
def reshapeOut (A : S2x5000x128.Idx → Elt F .f32) : S10000x128.Idx → Elt F .f32 :=
  shapeCast S10000x128 A shapeCasts_S2x5000x128_S10000x128

/-- The shares the windows hold their arrays at: the two adjacency windows split their common array's. -/
def qSpec : Fin 6 → PosShare TreeShare := fun
  | 0 => fullShare | 1 => fullShare | 2 => fullShare.left | 3 => fullShare.right | 4 => fullShare | 5 => fullShare
  | ⟨_ + 6, h⟩ => absurd h (Nat.not_lt.2 (Nat.le_add_left _ _))

/-- The two reshapes before the region allocate nothing. -/
theorem hostOps0_fresh : (hostOps0 : List (HloOp τ sig (Elt F))).Forall fun op => op.fresh = ∅ := by
  simp only [List.Forall]; repeat' constructor

/-- @main around the region: it reduces to the region continued by the reshape of the result, at the
    contents after the two reshapes before it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The distinct buffers behind the windows' arrays, each whole at the region-entry contents, make the proof data's
    arrays at entry: the array the two adjacency windows share is split between them along its share
    (`pointsTo_share`), every other array goes to its one window whole. -/
theorem hsplit (rdat : (c : Dev nD) → RDat τ (Elt F) Unit ℕ (UR sig nD τ) ℕ cfg0 c)
    (hq : ∀ c w, (rdat c).q w = qSpec w)
    (hA : ∀ c w, (rdat c).A w = V m c (Pipeline.arrRef spec0 w)) (c : Dev nD) :
    (Pipeline.arrBufs spec0 c (V m c) : sProp 𝕄) ⊢ (rdat c).arrays (rdat c).A := by
  classical
  -- every window holds its array at the share `qSpec` names: the output at the full one by definition
  have hsh : ∀ w, (rdat c).share w = qSpec w := fun w => by
    unfold RDat.share; rw [hq]; fin_cases w <;> rfl
  -- the windows' arrays are whole buffers, at the region-entry contents
  have hR : (rdat c).arrays (rdat c).A = bigSep Finset.univ fun w : Fin 6 =>
      (((c : Thread nD τ).loc (Pipeline.arrRef spec0 w)) ↦{qSpec w} V m c (Pipeline.arrRef spec0 w) : sProp 𝕄) := by
    unfold RDat.arrays
    exact bigSep_congr fun w _ => by rw [(arr_whole0 w).set_eq_univ, hsh, hA]
  -- the five distinct buffers behind the six windows, one by one
  have hL : (Pipeline.arrBufs spec0 c (V m c) : sProp 𝕄)
      = iprop((((c : Thread nD τ).loc main_arg0) ↦{fullShare} V m c main_arg0) ∗ (((c : Thread nD τ).loc main_arg2) ↦{fullShare} V m c main_arg2)
          ∗ (((c : Thread nD τ).loc main_call0_v0) ↦{fullShare} V m c main_call0_v0) ∗ (((c : Thread nD τ).loc main_call0_v1) ↦{fullShare} V m c main_call0_v1)
          ∗ (((c : Thread nD τ).loc main_call0_v2) ↦{fullShare} V m c main_call0_v2)) :=
    bigSep_eq_bigSepL_of_eq [main_arg0, main_arg2, main_call0_v0, main_call0_v1, main_call0_v2] (by decide) (by decide) _
  rw [hR, bigSep_W0, hL]
  iintro ⟨H0, H1, H2, H4, H5⟩
  -- the shared array's points-to splits along its share into the two adjacency windows' halves
  ihave H23 := (pointsTo_share (PosShare.mem_left_op_right fullShare)).1 $$ H2
  icases H23 with ⟨H2, H3⟩
  isplitl [H0]; · iexact H0
  isplitl [H1]; · iexact H1
  isplitl [H2]; · iexact H2
  isplitl [H3]; · iexact H3
  isplitl [H4]; · iexact H4
  iexact H5

end Cert.KernelIdeal.Launch

end
-- ==== Proof.KernelIdealRun.lean ====
/-
  The run of the layer's program from relational proof data: the library's launch of one kernel region
  continued by host operations, given the body obligation. The two reshapes before the region are stepped
  first; the region runs; the reshape of the result reads the output window's array at whatever it then
  holds. The post: the four arguments unchanged, the result the reshape of contents the output array may
  hold after the last write-back.
-/
import proofs.«157422_g85813446574119_cont_sun_m_903_13_alg».proof.Proof.KernelIdealLaunch

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)
open Cert.KernelIdeal Cert.KernelIdeal.Gen Cert.KernelIdeal.Launch

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the reshape of the result hands back beside the arrays: the two arguments no window reads, at the
    region-entry contents, and the result buffer at the reshape of some contents the output window's array may hold
    after the last write-back. -/
def exitRest (rdat : (c : Dev nD) → RDat τ (Elt F) Unit ℕ (UR sig nD τ) ℕ cfg0 c) (c : Dev nD) : sProp 𝕄 :=
  iprop(∃ A5 : S2x5000x128.Idx → Elt F .f32, ⌜(rdat c).ArrAt (5 : Fin 6) cfg0.N A5⌝
    ∗ (((c.tc : Thread nD τ).loc main_arg1) ↦{fullShare} V m c main_arg1)
    ∗ (((c.tc : Thread nD τ).loc main_arg3) ↦{fullShare} V m c main_arg3)
    ∗ (((c.tc : Thread nD τ).loc main_v0) ↦{fullShare} (reshapeOut A5 : S10000x128.Idx → Elt F .f32)))

set_option backward.isDefEq.respectTransparency.types false in
/-- The reshape of the result, run from the region's exit: holding the boundary, the arrays at contents they may
    hold after the last write-back and the three buffers no window reads at the region-entry contents, it reads the
    output window's array — whole, at the full share, at some such contents `A5` — and writes the result buffer,
    which then holds `reshapeOut A5`; the arrays are given back as they were. -/
theorem tail_run (rdat : (c : Dev nD) → RDat τ (Elt F) Unit ℕ (UR sig nD τ) ℕ cfg0 c) (c : Dev nD) (Q' : PUnit → sProp 𝕄) :
    iprop((iprop((rdat c).arraysAt cfg0.N ∗ exitRest m rdat c) -∗ Q' ⟨⟩)
        ∗ boundary (c.tc : Thread nD τ) ∗ (rdat c).arraysAt cfg0.N
        ∗ Pipeline.unscopedRest (Ix := Unit) (Name := ℕ) (U := UR sig nD τ) (Lvl := ℕ) spec0 c (V m c))
      ⊢ wp frame (wpE (Pipeline.defs (pcfgs (F := F)) defs₀) (Variants.lift Variants.none) (c.tc : Thread nD τ) none) Set.univ
          (Pipeline.chain [StableHlo.seq hostOps1]) Q' := by
  classical
  -- the reshape's two buffers are distinct, and held over them is their two points-tos
  have hne : Proc.devRef (τ := τ) .tc main_call0_v2 ≠ Proc.devRef .tc main_v0 := StableHlo.devRef_ne_of_ne (by decide)
  have hheld : ∀ W : Valuation τ sig (Elt F),
      (StableHlo.held (c.tc : Thread nD τ) {Proc.devRef .tc main_call0_v2, Proc.devRef .tc main_v0} W : sProp 𝕄)
      = iprop((((c.tc : Thread nD τ).loc main_call0_v2) ↦{fullShare} W (Proc.devRef .tc main_call0_v2))
          ∗ (((c.tc : Thread nD τ).loc main_v0) ↦{fullShare} W (Proc.devRef .tc main_v0))) := fun W => by
    unfold StableHlo.held
    rw [BI.bigSep_insert (Finset.notMem_singleton.mpr hne), BI.bigSep_singleton]
    rfl
  -- the line is the one reshape: it touches these two buffers and determines what it writes
  have hsub : ∀ ops ∈ [hostOps1 (F := F)], ∀ op ∈ ops,
      op.bufs ⊆ ({Proc.devRef .tc main_call0_v2, Proc.devRef .tc main_v0} : Finset (DevRef τ sig)) := by
    intro ops hops op hop
    obtain rfl := List.mem_singleton.mp hops
    obtain rfl := List.mem_singleton.mp hop
    exact subset_refl _
  have hfresh : ∀ ops ∈ [hostOps1 (F := F)], ∀ op ∈ ops, op.fresh = ∅ := by
    intro ops hops op hop
    obtain rfl := List.mem_singleton.mp hops
    obtain rfl := List.mem_singleton.mp hop
    rfl
  -- the output window holds its array whole, at the full share
  have hshare : (rdat c).share (5 : Fin 6) = fullShare := if_pos rfl
  have e5 : ∀ A : Buf (Elt F) ((cfg0.win 5).arr.view.loc (c.tc : Thread nD τ)),
      (iprop((cfg0.win 5).arr.view.loc (c.tc : Thread nD τ) ↦[(cfg0.win 5).arr.view.set]{(rdat c).share 5} A) : sProp 𝕄)
        = iprop(((c.tc : Thread nD τ).loc main_call0_v2) ↦{fullShare} A) := fun A => by
    rw [hshare, (Gen.arr_whole0 5).set_eq_univ]
  unfold RDat.arraysAt exitRest
  rw [Gen.bigSep_W0, Gen.unscopedRest0_eq,
    show (Pipeline.chain [StableHlo.seq (hostOps1 (F := F))]
        : Prog (TpuEff nD τ sig (Elt F) (Pipeline.Sig Λ₀ (Fin 1) fun p => (pcfgs (F := F) p).Adm) .tc) PUnit)
      = Pipeline.chain ([hostOps1 (F := F)].map StableHlo.seq ++ []) from rfl]
  iintro ⟨Hk, Hb, ⟨Ha0, Ha1, Ha2, Ha3, Ha4, Ha5⟩, H1, H3, H0⟩
  icases Ha5 with ⟨%A5, %hA5, Ha5⟩
  ihave Ha5 := (Entails.of_eq (e5 A5)) $$ Ha5
  -- the core's contents at the region's exit, as far as the reshape reads them: the output array at `A5`
  obtain ⟨W, hW2, hW0⟩ : ∃ W : Valuation τ sig (Elt F),
      W (Proc.devRef .tc main_call0_v2) = A5 ∧ W (Proc.devRef .tc main_v0) = V m c main_v0 :=
    ⟨Function.update (V0 m c) (Proc.devRef .tc main_call0_v2) A5, Function.update_self _ _ _, Function.update_of_ne hne.symm _ _⟩
  -- after the reshape the array is as it was and the result buffer holds its reshape
  have hafter2 : StableHlo.after (List.flatten [hostOps1 (F := F)]) W (Proc.devRef .tc main_call0_v2) = A5 := by
    rw [StableHlo.after_of_forall_not_mem _ _ fun op hop hw => ?_, hW2]
    obtain rfl := List.mem_singleton.mp hop
    exact hne (Finset.mem_singleton.mp hw)
  have hafter0 : (StableHlo.after (List.flatten [hostOps1 (F := F)]) W (Proc.devRef .tc main_v0) : S10000x128.Idx → Elt F .f32)
      = reshapeOut A5 := by
    have h : (StableHlo.after (List.flatten [hostOps1 (F := F)]) W (Proc.devRef .tc main_v0) : S10000x128.Idx → Elt F .f32)
        = reshapeOut (W (Proc.devRef .tc main_call0_v2)) := by
      simp only [List.flatten_cons, List.flatten_nil, List.append_nil, StableHlo.after_cons, StableHlo.after_nil]
      rw [StableHlo.reshape_result]
      rfl
    rw [h, hW2]
  iapply (Pipeline.wp_seqs_then (pcfgs (F := F)) defs₀ Variants.none c
    {Proc.devRef .tc main_call0_v2, Proc.devRef .tc main_v0} [] [hostOps1 (F := F)] hsub hfresh W) $$ [Hb Ha5 H0]
  · isplitl [Hb]
    · iexact Hb
    rw [hheld, hW2, hW0]
    isplitl [Ha5]
    · iexact Ha5
    · iexact H0
  iintro Hbh
  rw [Pipeline.chain_nil, wp_pure, hheld, hafter2, hafter0]
  imodintro
  icases Hbh with ⟨-, Ha5, H0⟩
  iapply Hk
  isplitl [Ha0 Ha1 Ha2 Ha3 Ha4 Ha5]
  · isplitl [Ha0]
    · iexact Ha0
    isplitl [Ha1]
    · iexact Ha1
    isplitl [Ha2]
    · iexact Ha2
    isplitl [Ha3]
    · iexact Ha3
    isplitl [Ha4]
    · iexact Ha4
    iexists A5
    isplitr
    · ipureintro; exact hA5
    iapply (Entails.of_eq (e5 A5).symm)
    iexact Ha5
  · iexists A5
    isplitr
    · ipureintro; exact hA5
    isplitl [H1]
    · iexact H1
    isplitl [H3]
    · iexact H3
    iexact H0

/-- THE RUN. For relational proof data over the region-entry arrays (`hA`), at the shares `qSpec`, owing nothing,
    whose invariant is entered from and gives back the core's scratch buffer at some contents: every weakly fair
    execution of @main terminates; the result holds the reshape of some contents the output window's array may hold
    after the last write-back, and the four arguments hold what they held. -/
theorem frame_run (rdat : (c : Dev nD) → RDat τ (Elt F) Unit ℕ (UR sig nD τ) ℕ cfg0 c)
    (hbody : ∀ c, (rdat c).BodyObligation (defs₀ (F := F)) Variants.none () Set.univ)
    (hq : ∀ c w, (rdat c).q w = qSpec w)
    (howed : ∀ c t, (rdat c).owed t = 0)
    (hA : ∀ c w, (rdat c).A w = V m c (Pipeline.arrRef spec0 w))
    (hin : ∀ c, (Pipeline.scopedRest spec0 c : sProp 𝕄) ⊢ (rdat c).Φ 0)
    (hout : ∀ c, (rdat c).Φ (Fin.last cfg0.N) ⊢ (Pipeline.scopedRest spec0 c : sProp 𝕄)) :
    θ_run defs (onTc (τ := τ) (main (F := F))) ⟨m, fun _ => 0, ρ⟩ (fun r => ∀ c : Dev nD,
      (∃ A5 : S2x5000x128.Idx → Elt F .f32, (rdat c).ArrAt (5 : Fin 6) cfg0.N A5
        ∧ (r.2.mem ((c.tc : Thread nD τ).loc main_v0) : S10000x128.Idx → Elt F .f32) = reshapeOut A5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  classical
  exact RDat.θ_run_region_pf_tail (pcfgs (F := F)) (fun p => (cfgs p).toPCfg_adm (Val := Elt F)) (fun _ => rdat) () Gen.cellOf_inj 0
    Gen.winFacts₀0 (Pipeline.OwnSemFacts.none _) (Pipeline.PreFacts.none _) emb₁ defs₀ Variants.none m ρ main
    (fun _ => Pipeline.chain [StableHlo.seq hostOps1]) hbody Gen.block_pos0 Gen.arr_whole0 Gen.stage_whole0 howed
    (G := fun _ => iprop(emp))
    (u₀ := initOf (Pipeline.cells (Pipeline.pin (pcfgs (F := F)) (fun p => (cfgs p).toPCfg_adm (Val := Elt F))) Gen.cellOf_inj)
      (Pipeline.launchToks (Pipeline.pin (pcfgs (F := F)) (fun p => (cfgs p).toPCfg_adm (Val := Elt F))) Gen.cellOf_inj))
    (hu₀ := by
      iintro Hu; imodintro
      isplitl [Hu]
      · iapply (show (ownU _ : sProp 𝕄) ⊢ BI.own (emb₁ (initOf
            (Pipeline.cells (Pipeline.pin (pcfgs (F := F)) (fun p => (cfgs p).toPCfg_adm (Val := Elt F))) Gen.cellOf_inj)
            (Pipeline.launchToks (Pipeline.pin (pcfgs (F := F)) (fun p => (cfgs p).toPCfg_adm (Val := Elt F))) Gen.cellOf_inj))) from .rfl)
        iexact Hu
      · iapply (show (BI.emp : sProp 𝕄) ⊢ bigSep Finset.univ (fun _ : Dev nD => (BI.emp : sProp 𝕄)) from by rw [BI.bigSep_emp_const])
        iempintro)
    (V := V m) (hmain := Launch.hmain m Variants.none)
    (hsplit := fun c => Launch.hsplit m rdat hq hA c)
    (hpf := fun _ k => k.elim0)
    (X := fun _ => iprop(emp)) (Y := fun _ => iprop(emp))
    (Z := fun c => Pipeline.unscopedRest (Ix := Unit) (Name := ℕ) (U := UR sig nD τ) (Lvl := ℕ) spec0 c (V m c))
    (Z' := fun c => exitRest m rdat c)
    (hX := fun c => by
      rw [Pipeline.unscopedRestP_none]
      iintro ⟨HU, -, -, -, -, -⟩; imodintro
      isplitr
      · iempintro
      · iexact HU)
    (hin := fun c => (show _ ⊢ (Pipeline.scopedRest spec0 c : sProp 𝕄) from by iintro ⟨-, -, HR⟩; iexact HR).trans (hin c))
    (hout := fun c => (hout c).trans (by
      rw [Pipeline.ownSems0_none]
      iintro HR
      isplitr
      · iempintro
      isplitr
      · iempintro
      · iexact HR))
    (htail := fun c Q' => tail_run m rdat c Q')
    (QY := fun c s => (∃ A5 : S2x5000x128.Idx → Elt F .f32, (rdat c).ArrAt (5 : Fin 6) cfg0.N A5
        ∧ (s.mem ((c.tc : Thread nD τ).loc main_v0) : S10000x128.Idx → Elt F .f32) = reshapeOut A5)
      ∧ s.mem ((c.tc : Thread nD τ).loc main_arg1) = V m c main_arg1
      ∧ s.mem ((c.tc : Thread nD τ).loc main_arg3) = V m c main_arg3)
    (hY := fun c s' => by
      unfold exitRest
      iintro ⟨-, HZ, HSI⟩
      icases HZ with ⟨%A5, %hA5, H1, H3, H0⟩
      icombine HSI H1 gives %h1
      icombine HSI H3 gives %h3
      icombine HSI H0 gives %h0
      imodintro
      isplitr
      · ipureintro
        exact ⟨⟨A5, hA5, Buf.eq_of_forall_mem_univ h0⟩, Buf.eq_of_forall_mem_univ h1, Buf.eq_of_forall_mem_univ h3⟩
      · iexact HSI)
    (hQ := fun s h c => by
      obtain ⟨harr, -, hA5, h1, h3⟩ := h c
      have h0 := harr (0 : Fin 6)
      have h2 := harr (1 : Fin 6)
      rw [RDat.ArrAt_in (rdat c) (0 : Fin 6) rfl] at h0
      rw [RDat.ArrAt_in (rdat c) (1 : Fin 6) rfl] at h2
      refine ⟨hA5, ?_, ?_, ?_, ?_⟩
      · exact h0.trans ((hA c 0).trans (Launch.V_arg0 m c))
      · exact h1.trans (Launch.V_arg1 m c)
      · exact h2.trans ((hA c 1).trans (Launch.V_arg2 m c))
      · exact h3.trans (Launch.V_arg3 m c))

end Cert.KernelIdeal.Run

end
-- ==== Proof.KernelIdealBody.lean ====
/-
  The kernel body of the graph-convolution layer, run once per grid point on whole staging buffers.
  At the first grid point the body first stores the product x · W into the scratch buffer; at every
  point it reads the scratch (the support matrix S), the bias row and the two 224-row blocks of the
  adjacency matrix (one from each half), and stores max(block · S + bias, 0) into the two halves
  of the output tile. Stated for any float instance.
-/
import proofs.«157422_g85813446574119_cont_sun_m_903_13_alg».proof.Proof.Gen.KernelIdeal.Launch
import proofs.«157422_g85813446574119_cont_sun_m_903_13_alg».proof.Proof.Gen.KernelIdeal.Skeleton
import proofs.«157422_g85813446574119_cont_sun_m_903_13_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.ValueIdx
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)
open Cert.KernelIdeal Cert.KernelIdeal.Gen

variable {F : FTy → Type} [FloatOps F]

local notation "𝕄" => MT nD τ sig Unit (Elt F) ℕ (UR sig nD τ) ℕ

/-- The body's one branch: taken exactly when the grid coordinate is zero. -/
abbrev cond0 (i : grid0.Coords) : Prop :=
  (Scalar.cmpi .ne (Scalar.extui (Scalar.cmpi .eq (BitVec.ofNat 32 (i 0).val) 0#32)) 0#32) = 1#1

/-- Over the 23 grid points the branch is taken at the first point only. -/
theorem hcond0 : ∀ t : Fin cfg0.N, cond0 (grid0.coords t) ↔ t.val = 0 :=
  (by decide +kernel : ∀ t : Fin grid0.N, cond0 (grid0.coords t) ↔ t.val = 0)

/-- The output tile [2, 224, 128] the body leaves: half 0 is max(top · S + bias, 0) and half 1 is
    max(bot · S + bias, 0), for S the support matrix, top / bot the two adjacency blocks. -/
def outTile (s : Vec F S10000x128 .f32) (b : Vec F S1x128 .f32) (top bot : Vec F S1x224x10000 .f32) : Vec F S2x224x128 .f32 :=
  fun j => if (j 0).val = 0 then k0_pay3 s b top (ValueIdx.ix3 (0 : Fin 1) (j 1) (j 2))
           else k0_pay4 s b bot (ValueIdx.ix3 (0 : Fin 1) (j 1) (j 2))

/-- The output tile after the two half-tile stores, whatever it held before: every index lies in exactly one
    of the two rectangles (first coordinate 0 or 1), so the tile reads the first payload on half 0 and the
    second on half 1, each at the remaining two coordinates. -/
theorem read_halves (v : View sig .tc .vmem S2x224x128 .f32) (f : v.ty.Contents (Elt F))
    (inb0 : ∀ a, (![0, 0, 0] : Fin 3 → Nat) a + S1x224x128.size a ≤ S2x224x128.size a)
    (inb1 : ∀ a, (![1, 0, 0] : Fin 3 → Nat) a + S1x224x128.size a ≤ S2x224x128.size a)
    (p3 p4 : S1x224x128.Idx → Elt F .f32) :
    v.read (Elt F) (v.writes (Elt F) f
        [⟨Rect.unit ![1, 0, 0] S1x224x128.size inb1, p4⟩, ⟨Rect.unit ![0, 0, 0] S1x224x128.size inb0, p3⟩])
      = fun j => if (j 0).val = 0 then p3 (ValueIdx.ix3 (0 : Fin 1) (j 1) (j 2))
                 else p4 (ValueIdx.ix3 (0 : Fin 1) (j 1) (j 2)) := by
  funext j
  have hlt : (j 0).val < 2 := (j 0).isLt
  by_cases h : (j 0).val = 0
  · rw [if_pos h]
    -- j is the image of (0, j 1, j 2) under the first rectangle
    have hj : (Rect.unit (s := S2x224x128) ![0, 0, 0] S1x224x128.size inb0).emb (ValueIdx.ix3 (0 : Fin 1) (j 1) (j 2)) = j := by
      funext (a : Fin 3); apply Fin.ext
      match a with
      | ⟨0, _⟩ => show 0 + 1 * 0 = (j 0).val; omega
      | ⟨1, _⟩ => show 0 + 1 * (j 1).val = (j 1).val; omega
      | ⟨2, _⟩ => show 0 + 1 * (j 2).val = (j 2).val; omega
    have key := View.read_writes_of_unique v f
      (⟨Rect.unit (s := S2x224x128) ![0, 0, 0] S1x224x128.size inb0, p3⟩ : View.Piece (Elt F) S2x224x128 .f32)
      (ValueIdx.ix3 (0 : Fin 1) (j 1) (j 2))
      [⟨Rect.unit ![1, 0, 0] S1x224x128.size inb1, p4⟩, ⟨Rect.unit ![0, 0, 0] S1x224x128.size inb0, p3⟩]
      (List.mem_cons_of_mem _ List.mem_cons_self)
      (fun q hq hm => by
        rcases List.mem_cons.mp hq with rfl | hq
        · -- the second rectangle starts at first coordinate 1
          have hm' : (Rect.unit (s := S2x224x128) ![0, 0, 0] S1x224x128.size inb0).emb (ValueIdx.ix3 (0 : Fin 1) (j 1) (j 2))
              ∈ (Rect.unit (s := S2x224x128) ![1, 0, 0] S1x224x128.size inb1).set := hm
          have h0 := (Rect.mem_set_unit.mp hm' (0 : Fin 3)).1
          have h0' : 1 ≤ 0 + 1 * 0 := h0
          omega
        · exact List.mem_singleton.mp hq)
    rw [hj] at key
    exact key
  · rw [if_neg h]
    have hj : (Rect.unit (s := S2x224x128) ![1, 0, 0] S1x224x128.size inb1).emb (ValueIdx.ix3 (0 : Fin 1) (j 1) (j 2)) = j := by
      funext (a : Fin 3); apply Fin.ext
      match a with
      | ⟨0, _⟩ => show 1 + 1 * 0 = (j 0).val; omega
      | ⟨1, _⟩ => show 0 + 1 * (j 1).val = (j 1).val; omega
      | ⟨2, _⟩ => show 0 + 1 * (j 2).val = (j 2).val; omega
    have key := View.read_writes_of_unique v f
      (⟨Rect.unit (s := S2x224x128) ![1, 0, 0] S1x224x128.size inb1, p4⟩ : View.Piece (Elt F) S2x224x128 .f32)
      (ValueIdx.ix3 (0 : Fin 1) (j 1) (j 2))
      [⟨Rect.unit ![1, 0, 0] S1x224x128.size inb1, p4⟩, ⟨Rect.unit ![0, 0, 0] S1x224x128.size inb0, p3⟩]
      List.mem_cons_self
      (fun q hq hm => by
        rcases List.mem_cons.mp hq with rfl | hq
        · rfl
        · -- the first rectangle ends below first coordinate 1
          obtain rfl := List.mem_singleton.mp hq
          have hm' : (Rect.unit (s := S2x224x128) ![1, 0, 0] S1x224x128.size inb1).emb (ValueIdx.ix3 (0 : Fin 1) (j 1) (j 2))
              ∈ (Rect.unit (s := S2x224x128) ![0, 0, 0] S1x224x128.size inb0).set := hm
          have h0 := (Rect.mem_set_unit.mp hm' (0 : Fin 3)).2
          have h0' : 1 + 1 * 0 < 0 + 1 := h0
          omega)
    rw [hj] at key
    exact key

/-- A load of a whole buffer, held at the contents that read `x`, through the whole-shape rectangle at zero
    offsets returns `x`. -/
theorem readAt_whole {S : Shape} (m : Memref sig .tc .vmem S .f32) (hm : m.IsWhole) {off : Fin S.rank → Nat}
    (hz : off = fun _ => 0) (inb : ∀ a, off a + S.size a ≤ S.size a) (x : S.Idx → Elt F .f32) :
    View.readAt (Elt F) m.view (Rect.unit off S.size inb).toLoadRect (hm.unread x) = x := by
  rw [View.readAt_eq_ld, hm.read_unread, View.ld_unit_zero hz]

/-- One store of a payload through the whole-shape rectangle at zero offsets leaves the buffer reading that
    payload, whatever it held before. -/
theorem read_writes_whole {S : Shape} (v : View sig .tc .vmem S .f32) (f : v.ty.Contents (Elt F))
    {off : Fin S.rank → Nat} (hz : off = fun _ => 0) (inb : ∀ a, off a + S.size a ≤ S.size a)
    (w : S.Idx → Elt F .f32) :
    v.read (Elt F) (v.writes (Elt F) f [(⟨Rect.unit off S.size inb, w⟩ : View.Piece (Elt F) S .f32)]) = w := by
  rw [View.read_writes_eq_canon v f _ (fun y => ⟨_, List.mem_singleton_self _, View.mem_set_unit_zero hz inb y⟩),
    View.canon_unit_zero hz]

/-- The body at the first grid point: the scratch ends at x · W, the output tile at `outTile` of it; the
    input buffers are left as found. -/
theorem run_first (c : Dev nD) (i : grid0.Coords)
    (arg1 : Memref sig .tc .vmem S10000x128 .f32) (harg1 : arg1.IsWhole) (arg2 : Memref sig .tc .vmem S128x128 .f32) (harg2 : arg2.IsWhole)
    (arg3 : Memref sig .tc .vmem S1x224x10000 .f32) (harg3 : arg3.IsWhole) (arg4 : Memref sig .tc .vmem S1x224x10000 .f32) (harg4 : arg4.IsWhole)
    (arg5 : Memref sig .tc .vmem S1x128 .f32) (harg5 : arg5.IsWhole) (arg6 : Memref sig .tc .vmem S2x224x128 .f32) (harg6 : arg6.IsWhole)
    (arg7 : Memref sig .tc .vmem S10000x128 .f32) (harg7 : arg7.IsWhole) (hc : cond0 i)
    (x1 : Vec F S10000x128 .f32) (x2 : Vec F S128x128 .f32) (x3 x4 : Vec F S1x224x10000 .f32) (x5 : Vec F S1x128 .f32)
    (E : Set ℕ) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5
        ∗ (∃ d, owns (c : Thread nD τ) arg6 fullShare d) ∗ (∃ d, owns (c : Thread nD τ) arg7 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5
            ∗ owns (c : Thread nD τ) arg6 fullShare (outTile (k0_pay1 x1 x2) x5 x3 x4)
            ∗ owns (c : Thread nD τ) arg7 fullShare (k0_pay1 x1 x2)) -∗ K ⟨⟩))
      ⊢ wp frame (wpE (defs₀ (F := F)) Variants.none c none) E
          (cc0__gcn_block_kernel i arg1 harg1 arg2 harg2 arg3 harg3 arg4 harg4 arg5 harg5 arg6 harg6 arg7 harg7) K := by
  have hz2 : (![0, 0] : Fin 2 → Nat) = fun _ => 0 := funext fun a => by fin_cases a <;> rfl
  have hz3 : (![0, 0, 0] : Fin 3 → Nat) = fun _ => 0 := funext fun a => by fin_cases a <;> rfl
  simp only [cc0__gcn_block_kernel_eq_skeleton]; unfold cc0__gcn_block_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, %hf6, H6⟩, ⟨%d7, %f7, %hf7, H7⟩, Hk⟩
  obtain rfl := harg1.eq_unread hf1; obtain rfl := harg2.eq_unread hf2; obtain rfl := harg3.eq_unread hf3
  obtain rfl := harg4.eq_unread hf4; obtain rfl := harg5.eq_unread hf5
  -- the branch is taken: x and W are loaded, x · W is stored whole into the scratch; then as at every point
  sl_exec (disch := exact hc)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap
    · iexact H6
    · -- the scratch read back after its whole store is the stored product; the rest as at a later point
      ipureintro
      sl_unfold_words
      rw [read_halves, View.readCov_unit_zero _ hz2, readAt_whole arg1 harg1 hz2, readAt_whole arg2 harg2 hz2,
        readAt_whole arg5 harg5 hz2, readAt_whole arg3 harg3 hz3, readAt_whole arg4 harg4 hz3]
      rfl
  · iexists _; isplitr
    swap
    · iexact H7
    · -- the scratch after its one whole store reads the stored product
      ipureintro
      sl_unfold_words
      rw [read_writes_whole _ _ hz2, readAt_whole arg1 harg1 hz2, readAt_whole arg2 harg2 hz2]

/-- The body at a later grid point: the scratch is read and left as found (`xs`), the output tile ends at
    `outTile` of it; the input buffers are left as found. -/
theorem run_rest (c : Dev nD) (i : grid0.Coords)
    (arg1 : Memref sig .tc .vmem S10000x128 .f32) (harg1 : arg1.IsWhole) (arg2 : Memref sig .tc .vmem S128x128 .f32) (harg2 : arg2.IsWhole)
    (arg3 : Memref sig .tc .vmem S1x224x10000 .f32) (harg3 : arg3.IsWhole) (arg4 : Memref sig .tc .vmem S1x224x10000 .f32) (harg4 : arg4.IsWhole)
    (arg5 : Memref sig .tc .vmem S1x128 .f32) (harg5 : arg5.IsWhole) (arg6 : Memref sig .tc .vmem S2x224x128 .f32) (harg6 : arg6.IsWhole)
    (arg7 : Memref sig .tc .vmem S10000x128 .f32) (harg7 : arg7.IsWhole) (hc : ¬cond0 i)
    (x1 : Vec F S10000x128 .f32) (x2 : Vec F S128x128 .f32) (x3 x4 : Vec F S1x224x10000 .f32) (x5 : Vec F S1x128 .f32)
    (xs : Vec F S10000x128 .f32)
    (E : Set ℕ) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5
        ∗ (∃ d, owns (c : Thread nD τ) arg6 fullShare d) ∗ owns (c : Thread nD τ) arg7 fullShare xs
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5
            ∗ owns (c : Thread nD τ) arg6 fullShare (outTile xs x5 x3 x4)
            ∗ owns (c : Thread nD τ) arg7 fullShare xs) -∗ K ⟨⟩))
      ⊢ wp frame (wpE (defs₀ (F := F)) Variants.none c none) E
          (cc0__gcn_block_kernel i arg1 harg1 arg2 harg2 arg3 harg3 arg4 harg4 arg5 harg5 arg6 harg6 arg7 harg7) K := by
  have hz2 : (![0, 0] : Fin 2 → Nat) = fun _ => 0 := funext fun a => by fin_cases a <;> rfl
  have hz3 : (![0, 0, 0] : Fin 3 → Nat) = fun _ => 0 := funext fun a => by fin_cases a <;> rfl
  simp only [cc0__gcn_block_kernel_eq_skeleton]; unfold cc0__gcn_block_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, %hf6, H6⟩, ⟨%f7, %hf7, H7⟩, Hk⟩
  obtain rfl := harg1.eq_unread hf1; obtain rfl := harg2.eq_unread hf2; obtain rfl := harg3.eq_unread hf3
  obtain rfl := harg4.eq_unread hf4; obtain rfl := harg5.eq_unread hf5; obtain rfl := harg7.eq_unread hf7
  -- the branch is not taken; the four loads and the two half-tile stores run
  sl_exec (disch := exact hc)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap
    · iexact H6
    · -- the tile after the two stores, with every whole-buffer load read as the buffer's contents
      ipureintro
      rw [read_halves, readAt_whole arg7 harg7 hz2, readAt_whole arg5 harg5 hz2, readAt_whole arg3 harg3 hz3,
        readAt_whole arg4 harg4 hz3]
      rfl
  · iexists _; isplitr; · ipureintro; exact harg7.read_unread _
    iexact H7

end Cert.KernelIdeal.Body

end
-- ==== Proof.KernelIdealFrame.lean ====
/-
  The frame of the layer's program at any float instance: it runs to the end, faults nowhere and leaves
  its four arguments unchanged. A frame says nothing of what the kernel computes, so the proof data
  constrain nothing: every window's relation between what the body is handed and what it leaves is
  `True`, and the invariant between grid points is only that the core still holds its scratch buffer
  at some contents. The body obligation is then that the body runs from any contents: at the first grid
  point it stores into the scratch and reads it back, at the later points it reads what is there.
-/
import proofs.«157422_g85813446574119_cont_sun_m_903_13_alg».proof.Proof.KernelIdealRun
import proofs.«157422_g85813446574119_cont_sun_m_903_13_alg».proof.Proof.KernelIdealBody

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)
open Cert.KernelIdeal Cert.KernelIdeal.Gen Cert.KernelIdeal.Launch Cert.KernelIdeal.Body

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data that constrain nothing: arrays at the region-entry contents, every relation `True`, the
    invariant the scratch buffer at some contents. -/
def rdatT (c : Dev nD) : RDat τ (Elt F) Unit ℕ (UR sig nD τ) ℕ cfg0 c where
  A w := V m c (Pipeline.arrRef spec0 w)
  after _ _ _ _ := True
  Φ _ := Pipeline.scopedRest spec0 c
  q := qSpec
  owed _ := 0

/-- The scratch buffer as a memref owned at some contents. -/
theorem scopedRest_owns (c : Dev nD) :
    (Pipeline.scopedRest spec0 c : sProp 𝕄)
      = iprop(∃ d, owns (c : Thread nD τ) (Memref.whole cc0_scratch0 : Memref sig .tc .vmem S10000x128 .f32) fullShare d) := by
  rw [scopedRest0_eq]; simp only [owns_whole]; try rfl

/-- The body obligation: from any contents of the six current staging buffers and of the scratch, the body runs
    and hands all of them back at some contents. -/
theorem body_obligation (c : Dev nD) : (rdatT (F := F) m c).BodyObligation (defs₀ (F := F)) Variants.none () Set.univ := fun t Y _ => by
  rw [bigSep_W0, bigSep_W0]
  show iprop(Pipeline.scopedRest spec0 c ∗ (rdatT (F := F) m c).owesAt () t.castSucc ∗ _) ⊢ wp frame (wpE (defs₀ (F := F)) Variants.none c none) Set.univ (bodyAt0 t) (fun _ => iprop(Pipeline.scopedRest spec0 c ∗ (rdatT (F := F) m c).owesAt () t.castSucc ∗ _))
  rw [scopedRest_owns]
  iintro ⟨⟨%d7, H7⟩, Ho, H0, H1, H2, H3, H4, H5⟩
  by_cases ht : t.val = 0
  · iapply (run_first (F := F) c (grid0.coords t) _ _ _ _ _ _ _ _ _ _ _ _ _ _ ((hcond0 t).mpr ht) (Y 0) (Y 1) (Y 2) (Y 3) (Y 4) Set.univ _)
    isplitl [H0]; · iexact H0
    isplitl [H1]; · iexact H1
    isplitl [H2]; · iexact H2
    isplitl [H3]; · iexact H3
    isplitl [H4]; · iexact H4
    isplitl [H5]; · iexists _; iexact H5
    isplitl [H7]; · iexists _; iexact H7
    iintro ⟨H0, H1, H2, H3, H4, H5, H7⟩
    isplitl [H7]; · iexists _; iexact H7
    isplitl [Ho]; · iexact Ho
    isplitl [H0]
    · iexists (Y 0); isplitr
      · ipureintro; trivial
      · iexact H0
    isplitl [H1]
    · iexists (Y 1); isplitr
      · ipureintro; trivial
      · iexact H1
    isplitl [H2]
    · iexists (Y 2); isplitr
      · ipureintro; trivial
      · iexact H2
    isplitl [H3]
    · iexists (Y 3); isplitr
      · ipureintro; trivial
      · iexact H3
    isplitl [H4]
    · iexists (Y 4); isplitr
      · ipureintro; trivial
      · iexact H4
    · iexists (outTile (k0_pay1 (Y 0) (Y 1)) (Y 4) (Y 2) (Y 3)); isplitr
      · ipureintro; trivial
      · iexact H5
  · iapply (run_rest (F := F) c (grid0.coords t) _ _ _ _ _ _ _ _ _ _ _ _ _ _ (fun h => ht ((hcond0 t).mp h)) (Y 0) (Y 1) (Y 2) (Y 3) (Y 4) d7 Set.univ _)
    isplitl [H0]; · iexact H0
    isplitl [H1]; · iexact H1
    isplitl [H2]; · iexact H2
    isplitl [H3]; · iexact H3
    isplitl [H4]; · iexact H4
    isplitl [H5]; · iexists _; iexact H5
    isplitl [H7]; · iexact H7
    iintro ⟨H0, H1, H2, H3, H4, H5, H7⟩
    isplitl [H7]; · iexists _; iexact H7
    isplitl [Ho]; · iexact Ho
    isplitl [H0]
    · iexists (Y 0); isplitr
      · ipureintro; trivial
      · iexact H0
    isplitl [H1]
    · iexists (Y 1); isplitr
      · ipureintro; trivial
      · iexact H1
    isplitl [H2]
    · iexists (Y 2); isplitr
      · ipureintro; trivial
      · iexact H2
    isplitl [H3]
    · iexists (Y 3); isplitr
      · ipureintro; trivial
      · iexact H3
    isplitl [H4]
    · iexists (Y 4); isplitr
      · ipureintro; trivial
      · iexact H4
    · iexists (outTile d7 (Y 4) (Y 2) (Y 3)); isplitr
      · ipureintro; trivial
      · iexact H5

/-- THE FRAME at any float instance: every weakly fair execution of @main terminates, nothing faults, and the
    four arguments end unchanged. -/
theorem frame_any : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2)
    (Cert.KernelIdeal.Run.frame_run (F := F) m ρ (rdatT m) (body_obligation m) (fun _ _ => rfl) (fun _ _ => rfl) (fun _ _ => rfl)
      (fun _ => BI.Entails.refl _) (fun _ => BI.Entails.refl _))

end Cert.KernelIdeal.Frame

end
-- ==== Proof.IdealDat.lean ====
/-
  The layer's kernel with its contents NAMED. Each window's staging buffer after the body at grid point t:
  the three whole inputs (x, W, the bias row) hold their arrays' blocks; the two adjacency windows hold
  their 224-row blocks, filled out past the array's end (the last block overhangs rows 5000‥5151) by the
  zero word, which nothing reads; the output tile holds max(block · S + bias, 0) for both halves, S = x · W.
  The scratch that carries S between grid points is in the invariant: at any contents before the first
  point, at S from then on. What the body obligation needs of the arithmetic is one fact: a row of the
  output tile depends on the SAME row of the adjacency block only (`RowLocal`), so the rows inside the
  array do not see what fills the block out.
-/
import proofs.«157422_g85813446574119_cont_sun_m_903_13_alg».proof.Proof.KernelIdealLaunch
import proofs.«157422_g85813446574119_cont_sun_m_903_13_alg».proof.Proof.KernelIdealBody
import Idealize.ShloMosaic.Lib.Pipeline.Cells
import Idealize.ShloMosaic.Lib.Pipeline.Value

set_option maxRecDepth 16384

noncomputable section

namespace Cert.KernelIdeal.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)
open Cert.KernelIdeal Cert.KernelIdeal.Gen Cert.KernelIdeal.Launch Cert.KernelIdeal.Body

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Window `w`'s block at point `t`, read off its array as the region finds it: the part inside the array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The first grid point. -/
abbrev t0 : Fin cfg0.N := ⟨0, by decide⟩

/-- The blocks of x, W and the bias row (whole arrays, the same at every point). -/
def xb (c : Dev nD) (t : Fin cfg0.N) : Vec F S10000x128 .f32 := iblk m c 0 t
def wb (c : Dev nD) (t : Fin cfg0.N) : Vec F S128x128 .f32 := iblk m c 1 t
def bb (c : Dev nD) (t : Fin cfg0.N) : Vec F S1x128 .f32 := iblk m c 4 t
/-- The two adjacency blocks at point `t`, filled out past the array's end with the zero word. -/
def topb (c : Dev nD) (t : Fin cfg0.N) : Vec F S1x224x10000 .f32 :=
  win0_2.fill (grid0.coords t) (fun _ => Scalar.ofBits .f32 0#32) (iblk m c 2 t)
def botb (c : Dev nD) (t : Fin cfg0.N) : Vec F S1x224x10000 .f32 :=
  win0_3.fill (grid0.coords t) (fun _ => Scalar.ofBits .f32 0#32) (iblk m c 3 t)
/-- The support matrix x · W as the first grid point computes it. -/
def sup (c : Dev nD) : Vec F S10000x128 .f32 := k0_pay1 (xb m c t0) (wb m c t0)

/-- The proof data. -/
def dat (c : Dev nD) : Dat τ (Elt F) Unit ℕ (UR sig nD τ) ℕ cfg0 c where
  A w := V m c (Pipeline.arrRef spec0 w)
  after w t := match w with
    | ⟨0, _⟩ => xb m c t
    | ⟨1, _⟩ => wb m c t
    | ⟨2, _⟩ => topb m c t
    | ⟨3, _⟩ => botb m c t
    | ⟨4, _⟩ => bb m c t
    | ⟨5, _⟩ => outTile (sup m c) (bb m c t) (topb m c t) (botb m c t)
    | ⟨_ + 6, h⟩ => absurd h (Nat.not_lt.2 (Nat.le_add_left _ _))
  Φ t := iprop(∃ f : Vec F S10000x128 .f32, ⌜t.val ≠ 0 → f = sup m c⌝
      ∗ owns (c : Thread nD τ) (Memref.whole cc0_scratch0 : Memref sig .tc .vmem S10000x128 .f32) fullShare f)
  q := qSpec
  owed _ := 0

/-- The invariant, spelt out. -/
theorem Phi_eq (c : Dev nD) (t : Fin (cfg0.N + 1)) : (dat m c).Φ t
    = iprop(∃ f : Vec F S10000x128 .f32, ⌜t.val ≠ 0 → f = sup m c⌝
      ∗ owns (c : Thread nD τ) (Memref.whole cc0_scratch0 : Memref sig .tc .vmem S10000x128 .f32) fullShare f) := rfl

/-- The core's scoped buffers outside the pipeline's staging: the scratch, as a memref owned at some contents. -/
theorem scratch_owns (c : Dev nD) :
    (Pipeline.scopedRest spec0 c : sProp 𝕄)
      = iprop(∃ d, owns (c : Thread nD τ) (Memref.whole cc0_scratch0 : Memref sig .tc .vmem S10000x128 .f32) fullShare d) := by
  rw [scopedRest0_eq]; simp only [owns_whole]; try rfl

/-- A row of the output tile inside the array depends on the adjacency blocks only through their rows inside
    the array: true of the exact matrix product, which is row by row. -/
def RowLocal (F : FTy → Type) [FloatOps F] : Prop :=
  ∀ (t : Fin cfg0.N) (s : Vec F S10000x128 .f32) (b : Vec F S1x128 .f32) (X2 X2' X3 X3' : Vec F S1x224x10000 .f32),
    win0_2.cut (grid0.coords t) X2 = win0_2.cut (grid0.coords t) X2' →
    win0_3.cut (grid0.coords t) X3 = win0_3.cut (grid0.coords t) X3' →
    win0_5.cut (grid0.coords t) (outTile s b X2 X3) = win0_5.cut (grid0.coords t) (outTile s b X2' X3')

/-! ## What the body finds in each staging buffer -/

theorem before_0 (c : Dev nD) (t : Fin cfg0.N) (d) : (dat m c).before 0 t d = xb m c t :=
  ((dat m c).before_in_eq_fetched 0 rfl (fun _ => rfl) (fun _ _ _ => rfl) (fun t => by dsimp only [dat]; rfl) t d).trans
    (by unfold Dat.fetched Dat.blockOf xb iblk; rfl)
theorem before_1 (c : Dev nD) (t : Fin cfg0.N) (d) : (dat m c).before 1 t d = wb m c t :=
  ((dat m c).before_in_eq_fetched 1 rfl (fun _ => rfl) (fun _ _ _ => rfl) (fun t => by dsimp only [dat]; rfl) t d).trans
    (by unfold Dat.fetched Dat.blockOf wb iblk; rfl)
theorem before_4 (c : Dev nD) (t : Fin cfg0.N) (d) : (dat m c).before 4 t d = bb m c t :=
  ((dat m c).before_in_eq_fetched 4 rfl (fun _ => rfl) (fun _ _ _ => rfl) (fun t => by dsimp only [dat]; rfl) t d).trans
    (by unfold Dat.fetched Dat.blockOf bb iblk; rfl)
theorem before_2 (c : Dev nD) (t : Fin cfg0.N) (d) :
    (dat m c).before 2 t d = win0_2.fill (grid0.coords t) d (iblk m c 2 t) := by
  unfold Dat.before; rw [if_pos (fetch0_2 t)]; rfl
theorem before_3 (c : Dev nD) (t : Fin cfg0.N) (d) :
    (dat m c).before 3 t d = win0_3.fill (grid0.coords t) d (iblk m c 3 t) := by
  unfold Dat.before; rw [if_pos (fetch0_3 t)]; rfl
/-- The output window is never fetched. -/
theorem fetch0_5 : ∀ t : Fin cfg0.N, (cfg0.win 5).fetch t = false :=
  (by decide +kernel : ∀ t : Fin grid0.N, win0_5.fetch t = false)
theorem before_5 (c : Dev nD) (t : Fin cfg0.N) (d) : (dat m c).before 5 t d = d := by
  by_cases ht : t.val = 0
  · unfold Dat.before
    rw [if_neg (by rw [fetch0_5 t]; exact Bool.false_ne_true), if_pos ht]
  · rw [(dat m c).before_of_pos 5 t ht (fetch0_5 t) d, if_pos (flush0_5 _)]

/-- x and W do not move: their blocks are the same at every point. -/
theorem xb_const (c : Dev nD) (t : Fin cfg0.N) : xb m c t = xb m c t0 :=
  (dat m c).fetched_congr 0 (t := t) (t' := t0) rfl rfl (fun _ => Scalar.ofBits .f32 0#32)
theorem wb_const (c : Dev nD) (t : Fin cfg0.N) : wb m c t = wb m c t0 :=
  (dat m c).fetched_congr 1 (t := t) (t' := t0) rfl rfl (fun _ => Scalar.ofBits .f32 0#32)

/-- What each staging buffer holds after the body, window by window. -/
theorem after_0 (c : Dev nD) (t : Fin cfg0.N) : (dat m c).after (0 : Fin 6) t = xb m c t := rfl
theorem after_1 (c : Dev nD) (t : Fin cfg0.N) : (dat m c).after (1 : Fin 6) t = wb m c t := rfl
theorem after_2 (c : Dev nD) (t : Fin cfg0.N) : (dat m c).after (2 : Fin 6) t = topb m c t := rfl
theorem after_3 (c : Dev nD) (t : Fin cfg0.N) : (dat m c).after (3 : Fin 6) t = botb m c t := rfl
theorem after_4 (c : Dev nD) (t : Fin cfg0.N) : (dat m c).after (4 : Fin 6) t = bb m c t := rfl
theorem after_5 (c : Dev nD) (t : Fin cfg0.N) :
    (dat m c).after (5 : Fin 6) t = outTile (sup m c) (bb m c t) (topb m c t) (botb m c t) := rfl

/-- x · W computed from the blocks of any point is the support matrix. -/
theorem sup_eq (c : Dev nD) (t : Fin cfg0.N) : k0_pay1 (xb m c t) (wb m c t) = sup m c := by
  rw [xb_const m c t, wb_const m c t]; rfl

/-- The tile the body leaves from adjacency blocks filled out by anything is, filled with the named tile's rows
    inside the array, itself: those rows see the blocks' rows inside the array only, which are the array's. -/
theorem out_fill (hloc : RowLocal F) (c : Dev nD) (t : Fin cfg0.N) (d2 d3 : S1x224x10000.Idx → Elt F .f32) :
    win0_5.fill (grid0.coords t) (outTile (sup m c) (bb m c t) (win0_2.fill (grid0.coords t) d2 (iblk m c 2 t)) (win0_3.fill (grid0.coords t) d3 (iblk m c 3 t)))
        (win0_5.cut (grid0.coords t) (outTile (sup m c) (bb m c t) (topb m c t) (botb m c t)))
      = outTile (sup m c) (bb m c t) (win0_2.fill (grid0.coords t) d2 (iblk m c 2 t)) (win0_3.fill (grid0.coords t) d3 (iblk m c 3 t)) :=
  win0_5.fill_congr_cut (grid0.coords t) (hloc t _ _ _ _ _ _
    ((win0_2.cut_fill _ _ _).trans (win0_2.cut_fill _ _ _).symm) ((win0_3.cut_fill _ _ _).trans (win0_3.cut_fill _ _ _).symm))

/-! ## The body obligation -/

theorem loose_obligation (hloc : RowLocal F) (c : Dev nD) :
    BodyObligationLoose (dat (F := F) m c) (defs₀ (F := F)) Variants.none () Set.univ := fun t => by
  rw [bigSep_W0, bigSep_W0]
  -- no point is idle; windows 2, 3 and 5 are stated on the part inside the array
  simp only
  rw [after_0, after_1, after_2, after_3, after_4, after_5, Phi_eq, Phi_eq,
    show (dat m c).owesAt () t.succ = (dat m c).owesAt () t.castSucc from rfl]
  show _ ⊢ wp frame (wpE (defs₀ (F := F)) Variants.none c none) Set.univ (bodyAt0 t) _
  iintro ⟨⟨%f, %hf, H7⟩, Ho, ⟨%d0, H0⟩, ⟨%d1, H1⟩, ⟨%d2, H2⟩, ⟨%d3, H3⟩, ⟨%d4, H4⟩, ⟨%d5, H5⟩⟩
  rw [before_0 m c t d0, before_1 m c t d1, before_2 m c t d2, before_3 m c t d3, before_4 m c t d4, before_5 m c t d5]
  by_cases ht : t.val = 0
  · -- the first point: the scratch is written with x · W, which is the support matrix
    iapply (run_first (F := F) c (grid0.coords t) _ _ _ _ _ _ _ _ _ _ _ _ _ _ ((hcond0 t).mpr ht) (xb m c t) (wb m c t)
      (win0_2.fill (grid0.coords t) d2 (iblk m c 2 t)) (win0_3.fill (grid0.coords t) d3 (iblk m c 3 t)) (bb m c t) Set.univ _)
    isplitl [H0]; · iexact H0
    isplitl [H1]; · iexact H1
    isplitl [H2]; · iexact H2
    isplitl [H3]; · iexact H3
    isplitl [H4]; · iexact H4
    isplitl [H5]; · iexists d5; iexact H5
    isplitl [H7]; · iexists f; iexact H7
    iintro ⟨H0, H1, H2, H3, H4, H5, H7⟩
    rw [sup_eq m c t]
    isplitl [H7]
    · iexists (sup m c); isplitr
      · ipureintro; intro _; rfl
      · iexact H7
    isplitl [Ho]; · iexact Ho
    isplitl [H0]; · iexact H0
    isplitl [H1]; · iexact H1
    isplitl [H2]
    · -- on the rows inside the array the block is the array's, whatever fills it out
      iexists d2
      rw [show (win0 2).cut (grid0.coords t) (topb m c t) = iblk m c 2 t from win0_2.cut_fill _ _ _]
      iexact H2
    isplitl [H3]
    · iexists d3
      rw [show (win0 3).cut (grid0.coords t) (botb m c t) = iblk m c 3 t from win0_3.cut_fill _ _ _]
      iexact H3
    isplitl [H4]; · iexact H4
    · -- the tile's rows inside the array see the adjacency blocks' rows inside the array only
      iexists (outTile (sup m c) (bb m c t) (win0_2.fill (grid0.coords t) d2 (iblk m c 2 t)) (win0_3.fill (grid0.coords t) d3 (iblk m c 3 t)))
      change _ ⊢ owns (c : Thread nD τ) (stage0_5 (cfg0.slots t 5)) fullShare
        (win0_5.fill (grid0.coords t) (outTile (sup m c) (bb m c t) (win0_2.fill (grid0.coords t) d2 (iblk m c 2 t)) (win0_3.fill (grid0.coords t) d3 (iblk m c 3 t)))
          (win0_5.cut (grid0.coords t) (outTile (sup m c) (bb m c t) (topb m c t) (botb m c t))))
      rw [out_fill m hloc c t d2 d3]
  · -- a later point: the scratch holds the support matrix and is left as found
    obtain rfl : f = sup m c := hf ht
    iapply (run_rest (F := F) c (grid0.coords t) _ _ _ _ _ _ _ _ _ _ _ _ _ _ (fun h => ht ((hcond0 t).mp h)) (xb m c t) (wb m c t)
      (win0_2.fill (grid0.coords t) d2 (iblk m c 2 t)) (win0_3.fill (grid0.coords t) d3 (iblk m c 3 t)) (bb m c t) (sup m c) Set.univ _)
    isplitl [H0]; · iexact H0
    isplitl [H1]; · iexact H1
    isplitl [H2]; · iexact H2
    isplitl [H3]; · iexact H3
    isplitl [H4]; · iexact H4
    isplitl [H5]; · iexists d5; iexact H5
    isplitl [H7]; · iexact H7
    iintro ⟨H0, H1, H2, H3, H4, H5, H7⟩
    isplitl [H7]
    · iexists (sup m c); isplitr
      · ipureintro; intro _; rfl
      · iexact H7
    isplitl [Ho]; · iexact Ho
    isplitl [H0]; · iexact H0
    isplitl [H1]; · iexact H1
    isplitl [H2]
    · -- on the rows inside the array the block is the array's, whatever fills it out
      iexists d2
      rw [show (win0 2).cut (grid0.coords t) (topb m c t) = iblk m c 2 t from win0_2.cut_fill _ _ _]
      iexact H2
    isplitl [H3]
    · iexists d3
      rw [show (win0 3).cut (grid0.coords t) (botb m c t) = iblk m c 3 t from win0_3.cut_fill _ _ _]
      iexact H3
    isplitl [H4]; · iexact H4
    · -- the tile's rows inside the array see the adjacency blocks' rows inside the array only
      iexists (outTile (sup m c) (bb m c t) (win0_2.fill (grid0.coords t) d2 (iblk m c 2 t)) (win0_3.fill (grid0.coords t) d3 (iblk m c 3 t)))
      change _ ⊢ owns (c : Thread nD τ) (stage0_5 (cfg0.slots t 5)) fullShare
        (win0_5.fill (grid0.coords t) (outTile (sup m c) (bb m c t) (win0_2.fill (grid0.coords t) d2 (iblk m c 2 t)) (win0_3.fill (grid0.coords t) d3 (iblk m c 3 t)))
          (win0_5.cut (grid0.coords t) (outTile (sup m c) (bb m c t) (topb m c t) (botb m c t))))
      rw [out_fill m hloc c t d2 d3]

end Cert.KernelIdeal.Named

end
-- ==== Proof.IdealValueRun.lean ====
/-
  The run of the layer's program with its result NAMED, at any float instance at which a row of the output
  tile depends only on the same row of the adjacency block: the named proof data, read as relational data,
  go through the launch; what the output window's array may then hold is exactly what the data compute.
-/
import proofs.«157422_g85813446574119_cont_sun_m_903_13_alg».proof.Proof.KernelIdealRun
import proofs.«157422_g85813446574119_cont_sun_m_903_13_alg».proof.Proof.IdealDat

set_option maxRecDepth 16384

noncomputable section

namespace Cert.KernelIdeal.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)
open Cert.KernelIdeal Cert.KernelIdeal.Gen Cert.KernelIdeal.Launch Cert.KernelIdeal.Body

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- THE RUN with the result NAMED: the result array holds the reshape of the output window's array after the last
    write-back, as the proof data compute it; the four arguments are unchanged. -/
theorem value_run (hloc : RowLocal F) : θ_run defs (onTc (τ := τ) (main (F := F))) ⟨m, fun _ => 0, ρ⟩ (fun r => ∀ c : Dev nD,
      (r.2.mem ((c.tc : Thread nD τ).loc main_v0) : S10000x128.Idx → Elt F .f32) = reshapeOut ((dat m c).arrAt (5 : Fin 6) cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ?_)
    (Cert.KernelIdeal.Run.frame_run (F := F) m ρ (fun c => (dat m c).toR) (fun c => (loose_obligation m hloc c).toR)
      (fun _ _ => rfl) (fun _ _ => rfl) (fun _ _ => rfl) (fun c => ?hin) (fun c => ?hout))
  · obtain ⟨⟨A5, hA5, hv⟩, hrest⟩ := h c
    refine ⟨?_, hrest⟩
    rw [hv, (dat m c).toR_arrAt (5 : Fin 6) cfg0.N A5 hA5]
  case hin =>
    show (Pipeline.scopedRest spec0 c : sProp 𝕄) ⊢ (dat m c).Φ 0
    rw [scratch_owns, Phi_eq]
    iintro ⟨%f, H⟩
    iexists f; isplitr
    · ipureintro; intro h; exact absurd rfl h
    · iexact H
  case hout =>
    show (dat m c).Φ (Fin.last cfg0.N) ⊢ (Pipeline.scopedRest spec0 c : sProp 𝕄)
    rw [scratch_owns, Phi_eq]
    iintro ⟨%f, -, H⟩
    iexists f; iexact H

end Cert.KernelIdeal.Named

end
-- ==== Proof.IdealPayload.lean ====
/-
  The body's arithmetic at the exact instance, read at one index. The support matrix entry S[k, j] is the sum
  over l of x[k, l] · W[l, j]; an entry (r, j) of either half of the output tile is
  max( Σ_k block[r, k] · S[k, j] + bias[j], 0 ): the matrix unit's product into a zero accumulator is the
  plain sum over the contracted axis, the bias row is broadcast along the rows, and the reshapes between
  [1, 224, ·] and [224, ·] keep the row-major position.
-/
import proofs.«157422_g85813446574119_cont_sun_m_903_13_alg».proof.Proof.Gen.KernelIdeal.Skeleton
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Payload

open Idealize.ShloMosaic Idealize.ShloMosaic.ValueIdx Cert.KernelIdeal Cert.KernelIdeal.Gen

/-! ## The product x · W: which operand entries meet at an output entry

For the dimension numbers "contract the left operand's axis 1 with the right operand's axis 0", the left operand
is read at (row of the output, contraction coordinate) and the right at (contraction coordinate, column of the
output). One lemma per operand axis. -/

theorem lhs_sup_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhs_sup_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem rhs_sup_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem rhs_sup_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The matrix unit's product x · W into a zero accumulator, at (k, j): the sum over the 128 contracted coordinates. -/
theorem sup_matmul_apply (x : Vec Ideal S10000x128 .f32) (w : Vec Ideal S128x128 .f32) (k : Fin 10000) (j : Fin 128) :
    matmul (F := Ideal) (φ₁ := .f32) (φ₂ := .f32) dot_S10000x128_S128x128_S10000x128_1_0_0_1_n_n none x w (constant S10000x128 .f32 0x00000000#32) (ix2 k j)
      = ∑ l : Fin 128, x (ix2 k l) * w (ix2 l j) := by
  simp only [matmul]
  rw [Ideal.matmul_constant_zero_apply, ← Equiv.sum_comp (contrEquiv1 dot_S10000x128_S128x128_S10000x128_1_0_0_1_n_n 128 rfl rfl).symm]
  refine Finset.sum_congr rfl fun l _ => ?_
  have hl := contrEquiv1_symm_val dot_S10000x128_S128x128_S10000x128_1_0_0_1_n_n 128 rfl rfl l
  have el : dot_S10000x128_S128x128_S10000x128_1_0_0_1_n_n.lhsIdx (ix2 k j) ((contrEquiv1 dot_S10000x128_S128x128_S10000x128_1_0_0_1_n_n 128 rfl rfl).symm l) = ix2 k l := funext fun a => Fin.ext (by
    match a with
    | ⟨0, _⟩ => exact lhs_sup_0 _ _
    | ⟨1, _⟩ => exact (lhs_sup_1 _ _).trans hl)
  have er : dot_S10000x128_S128x128_S10000x128_1_0_0_1_n_n.rhsIdx (ix2 k j) ((contrEquiv1 dot_S10000x128_S128x128_S10000x128_1_0_0_1_n_n 128 rfl rfl).symm l) = ix2 l j := funext fun a => Fin.ext (by
    match a with
    | ⟨0, _⟩ => exact (rhs_sup_0 _ _).trans hl
    | ⟨1, _⟩ => exact rhs_sup_1 _ _)
  rw [el, er]

/-- An entry of the support matrix x · W. -/
theorem sup_apply (x : Vec Ideal S10000x128 .f32) (w : Vec Ideal S128x128 .f32) (k : Fin 10000) (j : Fin 128) :
    k0_pay1 (F := Ideal) x w (ix2 k j) = ∑ l : Fin 128, x (ix2 k l) * w (ix2 l j) := by
  unfold k0_pay1
  rw [shapeCast_self]
  exact sup_matmul_apply x w k j

/-! ## The product block · S: the same dimension numbers at the shapes [224, 10000] × [10000, 128] -/

theorem lhs_blk_0 (i : S224x128.Idx) (q : dot_S224x10000_S10000x128_S224x128_1_0_0_1_n_n.contr.Idx) :
    (dot_S224x10000_S10000x128_S224x128_1_0_0_1_n_n.lhsIdx i q 0).val = (i 0).val := by
  unfold DotDims.lhsIdx
  rw [dif_neg (show ¬(0 : Fin S224x10000.rank) ∈ dot_S224x10000_S10000x128_S224x128_1_0_0_1_n_n.lhsBatch by decide), dif_pos (show (0 : Fin S224x10000.rank) ∈ dot_S224x10000_S10000x128_S224x128_1_0_0_1_n_n.lhsNonContracting by decide)]
  rfl
theorem lhs_blk_1 (i : S224x128.Idx) (q : dot_S224x10000_S10000x128_S224x128_1_0_0_1_n_n.contr.Idx) :
    (dot_S224x10000_S10000x128_S224x128_1_0_0_1_n_n.lhsIdx i q 1).val = (q ⟨0, by decide⟩).val :=
  dot_S224x10000_S10000x128_S224x128_1_0_0_1_n_n.lhsIdx_val_of_single rfl i q
theorem rhs_blk_0 (i : S224x128.Idx) (q : dot_S224x10000_S10000x128_S224x128_1_0_0_1_n_n.contr.Idx) :
    (dot_S224x10000_S10000x128_S224x128_1_0_0_1_n_n.rhsIdx i q 0).val = (q ⟨0, by decide⟩).val :=
  dot_S224x10000_S10000x128_S224x128_1_0_0_1_n_n.rhsIdx_val_of_single rfl i q
theorem rhs_blk_1 (i : S224x128.Idx) (q : dot_S224x10000_S10000x128_S224x128_1_0_0_1_n_n.contr.Idx) :
    (dot_S224x10000_S10000x128_S224x128_1_0_0_1_n_n.rhsIdx i q 1).val = (i 1).val := by
  unfold DotDims.rhsIdx
  rw [dif_neg (show ¬(1 : Fin S10000x128.rank) ∈ dot_S224x10000_S10000x128_S224x128_1_0_0_1_n_n.rhsBatch by decide), dif_pos (show (1 : Fin S10000x128.rank) ∈ dot_S224x10000_S10000x128_S224x128_1_0_0_1_n_n.rhsNonContracting by decide)]
  rfl

/-- The matrix unit's product of a [224, 10000] block with the support matrix into a zero accumulator, at (r, j): the
    sum over the 10000 contracted coordinates. -/
theorem blk_matmul_apply (a : Vec Ideal S224x10000 .f32) (s : Vec Ideal S10000x128 .f32) (r : Fin 224) (j : Fin 128) :
    matmul (F := Ideal) (φ₁ := .f32) (φ₂ := .f32) dot_S224x10000_S10000x128_S224x128_1_0_0_1_n_n none a s (constant S224x128 .f32 0x00000000#32) (ix2 r j)
      = ∑ k : Fin 10000, a (ix2 r k) * s (ix2 k j) := by
  simp only [matmul]
  rw [Ideal.matmul_constant_zero_apply, ← Equiv.sum_comp (contrEquiv1 dot_S224x10000_S10000x128_S224x128_1_0_0_1_n_n 10000 rfl rfl).symm]
  refine Finset.sum_congr rfl fun k _ => ?_
  have hk := contrEquiv1_symm_val dot_S224x10000_S10000x128_S224x128_1_0_0_1_n_n 10000 rfl rfl k
  have el : dot_S224x10000_S10000x128_S224x128_1_0_0_1_n_n.lhsIdx (ix2 r j) ((contrEquiv1 dot_S224x10000_S10000x128_S224x128_1_0_0_1_n_n 10000 rfl rfl).symm k) = ix2 r k := funext fun a => Fin.ext (by
    match a with
    | ⟨0, _⟩ => exact lhs_blk_0 _ _
    | ⟨1, _⟩ => exact (lhs_blk_1 _ _).trans hk)
  have er : dot_S224x10000_S10000x128_S224x128_1_0_0_1_n_n.rhsIdx (ix2 r j) ((contrEquiv1 dot_S224x10000_S10000x128_S224x128_1_0_0_1_n_n 10000 rfl rfl).symm k) = ix2 k j := funext fun a => Fin.ext (by
    match a with
    | ⟨0, _⟩ => exact (rhs_blk_0 _ _).trans hk
    | ⟨1, _⟩ => exact rhs_blk_1 _ _)
  rw [el, er]

/-- What both halves of the output tile compute from a [1, 224, 10000] block: the block viewed [224, 10000], times the
    support matrix, plus the bias row broadcast over the rows, clamped below at zero, viewed [1, 224, 128]. Read at
    (0, r, j) the outer reshape reads (r, j); the maximum, the sum and the splat of zero act entry by entry; the
    bias row's broadcast reads (0, j); the inner reshape reads the block at (0, r, k). -/
theorem half_apply (s : Vec Ideal S10000x128 .f32) (b : Vec Ideal S1x128 .f32) (blk : Vec Ideal S1x224x10000 .f32)
    (r : Fin 224) (j : Fin 128) :
    shapeCast S1x224x128
        (maximumf
          (addf
            (matmul (F := Ideal) (φ₁ := .f32) (φ₂ := .f32) dot_S224x10000_S10000x128_S224x128_1_0_0_1_n_n none
              (shapeCast S224x10000 blk shapeCasts_S1x224x10000_S224x10000) s (constant S224x128 .f32 0x00000000#32))
            (broadcastTo S224x128 (shapeCast S1x128 b shapeCasts_S1x128_S1x128) broadcasts_S1x128_S224x128))
          (broadcast S224x128 (Scalar.ofBits (F := Ideal) .f32 0x00000000#32)))
        shapeCasts_S224x128_S1x224x128 (ix3 (0 : Fin 1) r j)
      = FloatOps.maximumf (F := Ideal) ((∑ k : Fin 10000, blk (ix3 (0 : Fin 1) r k) * s (ix2 k j)) + b (ix2 (0 : Fin 1) j))
          (Ideal.ofBits .f32 0x00000000#32) := by
  rw [shapeCast_ab_1ab_apply]
  show FloatOps.maximumf (F := Ideal)
      (matmul (F := Ideal) (φ₁ := .f32) (φ₂ := .f32) dot_S224x10000_S10000x128_S224x128_1_0_0_1_n_n none
          (shapeCast S224x10000 blk shapeCasts_S1x224x10000_S224x10000) s (constant S224x128 .f32 0x00000000#32) (ix2 r j)
        + broadcastTo S224x128 (shapeCast S1x128 b shapeCasts_S1x128_S1x128) broadcasts_S1x128_S224x128 (ix2 r j))
      (Ideal.ofBits .f32 0x00000000#32) = _
  rw [blk_matmul_apply, broadcastTo_1b_ab_apply, shapeCast_self]
  congr 2
  exact Finset.sum_congr rfl fun k _ => by rw [shapeCast_1ab_ab_apply]

/-- An entry of the output tile's first half. -/
theorem pay3_apply (s : Vec Ideal S10000x128 .f32) (b : Vec Ideal S1x128 .f32) (top : Vec Ideal S1x224x10000 .f32)
    (r : Fin 224) (j : Fin 128) :
    k0_pay3 (F := Ideal) s b top (ix3 (0 : Fin 1) r j)
      = FloatOps.maximumf (F := Ideal) ((∑ k : Fin 10000, top (ix3 (0 : Fin 1) r k) * s (ix2 k j)) + b (ix2 (0 : Fin 1) j))
          (Ideal.ofBits .f32 0x00000000#32) :=
  half_apply s b top r j

/-- An entry of the output tile's second half. -/
theorem pay4_apply (s : Vec Ideal S10000x128 .f32) (b : Vec Ideal S1x128 .f32) (bot : Vec Ideal S1x224x10000 .f32)
    (r : Fin 224) (j : Fin 128) :
    k0_pay4 (F := Ideal) s b bot (ix3 (0 : Fin 1) r j)
      = FloatOps.maximumf (F := Ideal) ((∑ k : Fin 10000, bot (ix3 (0 : Fin 1) r k) * s (ix2 k j)) + b (ix2 (0 : Fin 1) j))
          (Ideal.ofBits .f32 0x00000000#32) :=
  half_apply s b bot r j

end Cert.KernelIdeal.Payload

end
-- ==== Proof.IdealRowLocal.lean ====
/-
  At the exact instance a row of the output tile reads only the same row of its adjacency block: entry
  (r, j) of either half is max(Σ_k block[r, k] · S[k, j] + bias[j], 0). The three clipped windows (the two
  adjacency windows and the output) cut the SAME rows at every grid point, so the rows of the tile inside
  the array see only the rows of the blocks inside the array.
-/
import proofs.«157422_g85813446574119_cont_sun_m_903_13_alg».proof.Proof.IdealDat
import proofs.«157422_g85813446574119_cont_sun_m_903_13_alg».proof.Proof.IdealPayload

set_option maxRecDepth 16384

noncomputable section

namespace Cert.KernelIdeal.Named

open Idealize.ShloMosaic Idealize.ShloMosaic.ValueIdx Cert.KernelIdeal Cert.KernelIdeal.Gen Cert.KernelIdeal.Body Cert.KernelIdeal.Payload

/-- How much of each block lies inside its array, at every grid point: the two adjacency windows and the
    output window keep the same number of rows (axis 1: the 5000 rows of a half in blocks of 224), and the
    adjacency windows keep all of axis 0 (extent 1) and all 10000 columns. Decided over the 23 grid points. -/
theorem xsize_facts : ∀ t : Fin grid0.N,
    win0_2.xsize (grid0.coords t) (1 : Fin 3) = win0_5.xsize (grid0.coords t) (1 : Fin 3)
    ∧ win0_3.xsize (grid0.coords t) (1 : Fin 3) = win0_5.xsize (grid0.coords t) (1 : Fin 3)
    ∧ win0_2.xsize (grid0.coords t) (0 : Fin 3) = 1 ∧ win0_2.xsize (grid0.coords t) (2 : Fin 3) = 10000
    ∧ win0_3.xsize (grid0.coords t) (0 : Fin 3) = 1 ∧ win0_3.xsize (grid0.coords t) (2 : Fin 3) = 10000 := by
  decide +kernel

/-- Two contents of a window's block whose parts inside the array agree, agree at every index of the block
    that lies inside the array. -/
theorem eq_of_cut_eq {G : Pipeline.Grid} (w : Pipeline.Window sig G) {α : Type} (i : G.Coords)
    {X Y : w.block.Idx → α} (h : w.cut i X = w.cut i Y) (z : w.block.Idx)
    (hz : ∀ a, (z a).val < w.xsize i a) : X z = Y z :=
  congrFun h (fun a => ⟨(z a).val, hz a⟩)

theorem rowLocal_ideal : RowLocal Ideal := by
  intro t s b X2 X2' X3 X3' h2 h3
  obtain ⟨f21, f31, f20, f22, f30, f32⟩ := xsize_facts t
  -- an entry of the tile in a row inside the array reads only that row of the blocks
  have key : ∀ z : S2x224x128.Idx, (z (1 : Fin 3)).val < win0_5.xsize (grid0.coords t) (1 : Fin 3) →
      outTile s b X2 X3 z = outTile s b X2' X3' z := by
    intro z hz
    obtain ⟨a, r, q, rfl⟩ : ∃ (a : Fin 2) (r : Fin 224) (q : Fin 128), z = ix3 a r q := ⟨z 0, z 1, z 2, eq_ix3 z⟩
    have hr : r.val < win0_5.xsize (grid0.coords t) (1 : Fin 3) := hz
    -- row r of either block is inside its array: there the two contents agree
    have e2 : ∀ k : Fin 10000, X2 (ix3 (0 : Fin 1) r k) = X2' (ix3 (0 : Fin 1) r k) := fun k =>
      eq_of_cut_eq win0_2 (grid0.coords t) h2 (ix3 (0 : Fin 1) r k) (fun (a : Fin 3) =>
        match a with
        | ⟨0, _⟩ => lt_of_lt_of_eq Nat.one_pos f20.symm
        | ⟨1, _⟩ => lt_of_lt_of_eq hr f21.symm
        | ⟨2, _⟩ => lt_of_lt_of_eq k.isLt f22.symm)
    have e3 : ∀ k : Fin 10000, X3 (ix3 (0 : Fin 1) r k) = X3' (ix3 (0 : Fin 1) r k) := fun k =>
      eq_of_cut_eq win0_3 (grid0.coords t) h3 (ix3 (0 : Fin 1) r k) (fun (a : Fin 3) =>
        match a with
        | ⟨0, _⟩ => lt_of_lt_of_eq Nat.one_pos f30.symm
        | ⟨1, _⟩ => lt_of_lt_of_eq hr f31.symm
        | ⟨2, _⟩ => lt_of_lt_of_eq k.isLt f32.symm)
    show (if a.val = 0 then k0_pay3 s b X2 (ix3 (0 : Fin 1) r q) else k0_pay4 s b X3 (ix3 (0 : Fin 1) r q))
       = (if a.val = 0 then k0_pay3 s b X2' (ix3 (0 : Fin 1) r q) else k0_pay4 s b X3' (ix3 (0 : Fin 1) r q))
    rw [pay3_apply, pay3_apply, pay4_apply, pay4_apply]
    simp only [e2, e3]
  funext y
  exact key (win0_5.xinj (grid0.coords t) y) (y (1 : Fin 3)).isLt

end Cert.KernelIdeal.Named

end
-- ==== Proof.Spec.lean ====
/-
  The graph-convolution layer as one function of its four argument arrays, over the extended reals:
  out[i, j] = max( Σ_k adj[i, k] · S[k, j] + bias[j], 0 ),  S[k, j] = Σ_l x[k, l] · W[l, j].
  Both programs compute exactly this, with the two products grouped the same way, so no law beyond
  re-indexing the sums is needed.
-/
import Idealize.ShloMosaic.PureOps.Ideal
import Idealize.ShloMosaic.PureOps.Ideal.Laws
import Idealize.ShloMosaic.Lib.ValueIdx

noncomputable section

namespace Cert.Gcn

open Idealize.ShloMosaic Idealize.ShloMosaic.ValueIdx

/-- The support matrix x · W, entry by entry. -/
def support (x : (⟨2, ![10000, 128]⟩ : Shape).Idx → EReal) (w : (⟨2, ![128, 128]⟩ : Shape).Idx → EReal) :
    (⟨2, ![10000, 128]⟩ : Shape).Idx → EReal :=
  fun i => ∑ l : Fin 128, x (ix2 (i 0) l) * w (ix2 l (i 1))

/-- The layer's pre-activation adj · (x · W) + bias, entry by entry. -/
def pre (x : (⟨2, ![10000, 128]⟩ : Shape).Idx → EReal) (adj : (⟨2, ![10000, 10000]⟩ : Shape).Idx → EReal)
    (w : (⟨2, ![128, 128]⟩ : Shape).Idx → EReal) (b : (⟨1, ![128]⟩ : Shape).Idx → EReal) :
    (⟨2, ![10000, 128]⟩ : Shape).Idx → EReal :=
  fun i => (∑ k : Fin 10000, adj (ix2 (i 0) k) * support x w (ix2 k (i 1))) + b (ix1 (i 1))

/-- The layer: the rectified pre-activation (the maximum with the zero word's value). -/
def gcn (x : (⟨2, ![10000, 128]⟩ : Shape).Idx → EReal) (adj : (⟨2, ![10000, 10000]⟩ : Shape).Idx → EReal)
    (w : (⟨2, ![128, 128]⟩ : Shape).Idx → EReal) (b : (⟨1, ![128]⟩ : Shape).Idx → EReal) :
    (⟨2, ![10000, 128]⟩ : Shape).Idx → EReal :=
  fun i => FloatOps.maximumf (F := Ideal) (pre x adj w b i) (Ideal.ofBits .f32 0x00000000#32)

end Cert.Gcn

end
-- ==== Proof.IdealOut.lean ====
/-
  From the blocks to the array. At grid point t the write-back moves rows 224·t ‥ of both halves of the
  output tile onto the output array [2, 5000, 128] (the last block cut at row 5000), and the tile's entry
  (h, r, j) is max(Σ_k adj[5000·h + 224·t + r, k] · S[k, j] + bias[j], 0): the adjacency window of half h
  reads the reshaped adjacency matrix at (h, 224·t + r, k), which is adj at row 5000·h + 224·t + r. So every
  flushed block is the block of ONE array, the layer's function reshaped to [2, 5000, 128]; the 23 blocks
  cover the array; and the reshape after the region undoes that reshape.
-/
import proofs.«157422_g85813446574119_cont_sun_m_903_13_alg».proof.Proof.IdealDat
import proofs.«157422_g85813446574119_cont_sun_m_903_13_alg».proof.Proof.IdealPayload
import proofs.«157422_g85813446574119_cont_sun_m_903_13_alg».proof.Proof.Spec

set_option maxRecDepth 16384

noncomputable section

namespace Cert.KernelIdeal.Named

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Launch Cert.KernelIdeal.Body Cert.KernelIdeal.Payload

variable (m : (ℓ : Loc nD τ sig) → Buf (Elt Ideal) ℓ)

/-- The layer's function of the four argument arrays of core `c`. -/
abbrev layer (c : Dev nD) : S10000x128.Idx → EReal :=
  Cert.Gcn.gcn (m ((c.tc : Thread nD τ).loc main_arg0)) (m ((c.tc : Thread nD τ).loc main_arg1))
    (m ((c.tc : Thread nD τ).loc main_arg2)) (m ((c.tc : Thread nD τ).loc main_arg3))

/-- [10000, 128] and [2, 5000, 128] have the same number of elements. -/
theorem hcast : S10000x128.ShapeCasts S2x5000x128 := by decide

/-- The four argument arrays of core `c`, as functions of literal index types. -/
abbrev argX (c : Dev nD) : S10000x128.Idx → EReal := m ((c.tc : Thread nD τ).loc main_arg0)
abbrev argAdj (c : Dev nD) : S10000x10000.Idx → EReal := m ((c.tc : Thread nD τ).loc main_arg1)
abbrev argW (c : Dev nD) : S128x128.Idx → EReal := m ((c.tc : Thread nD τ).loc main_arg2)
abbrev argB (c : Dev nD) : S128.Idx → EReal := m ((c.tc : Thread nD τ).loc main_arg3)

/-- The layer's function reshaped to the output window's array [2, 5000, 128]: row R of half h is row 5000·h + R. -/
abbrev G (c : Dev nD) : S2x5000x128.Idx → EReal := shapeCast S2x5000x128 (layer m c) hcast

/-! ## The layer and the tile's two halves at an entry -/

/-- The layer at the entry (p, q), written out. -/
theorem gcn_entry (x : S10000x128.Idx → EReal) (adj : S10000x10000.Idx → EReal) (w : S128x128.Idx → EReal)
    (b : S128.Idx → EReal) (p : Fin 10000) (q : Fin 128) :
    Cert.Gcn.gcn x adj w b (ix2 p q)
      = FloatOps.maximumf (F := Ideal)
          ((∑ k : Fin 10000, adj (ix2 p k) * ∑ l : Fin 128, x (ix2 k l) * w (ix2 l q)) + b (ix1 q))
          (Ideal.ofBits .f32 0x00000000#32) := rfl

/-- Row r of the first half of the tile is the layer's row P, when the support matrix is x · W, the bias row is the
    bias, and row r of the adjacency block is row P of adj. -/
theorem half_entry_top (s : Vec Ideal S10000x128 .f32) (b : Vec Ideal S1x128 .f32) (top : Vec Ideal S1x224x10000 .f32)
    (x : S10000x128.Idx → EReal) (adj : S10000x10000.Idx → EReal) (w : S128x128.Idx → EReal) (bias : S128.Idx → EReal)
    (r : Fin 224) (j : Fin 128) (P : Fin 10000)
    (hs : ∀ (k : Fin 10000) (j : Fin 128), s (ix2 k j) = ∑ l : Fin 128, x (ix2 k l) * w (ix2 l j))
    (hb : ∀ j : Fin 128, b (ix2 (0 : Fin 1) j) = bias (ix1 j))
    (htop : ∀ k : Fin 10000, top (ix3 (0 : Fin 1) r k) = adj (ix2 P k)) :
    k0_pay3 (F := Ideal) s b top (ix3 (0 : Fin 1) r j) = Cert.Gcn.gcn x adj w bias (ix2 P j) := by
  rw [pay3_apply, gcn_entry, hb]
  simp only [hs, htop]

/-- The same for the second half. -/
theorem half_entry_bot (s : Vec Ideal S10000x128 .f32) (b : Vec Ideal S1x128 .f32) (bot : Vec Ideal S1x224x10000 .f32)
    (x : S10000x128.Idx → EReal) (adj : S10000x10000.Idx → EReal) (w : S128x128.Idx → EReal) (bias : S128.Idx → EReal)
    (r : Fin 224) (j : Fin 128) (P : Fin 10000)
    (hs : ∀ (k : Fin 10000) (j : Fin 128), s (ix2 k j) = ∑ l : Fin 128, x (ix2 k l) * w (ix2 l j))
    (hb : ∀ j : Fin 128, b (ix2 (0 : Fin 1) j) = bias (ix1 j))
    (hbot : ∀ k : Fin 10000, bot (ix3 (0 : Fin 1) r k) = adj (ix2 P k)) :
    k0_pay4 (F := Ideal) s b bot (ix3 (0 : Fin 1) r j) = Cert.Gcn.gcn x adj w bias (ix2 P j) := by
  rw [pay4_apply, gcn_entry, hb]
  simp only [hs, hbot]

/-! ## The index maps and the cut extents, over the 23 grid points -/

/-- The three whole windows sit at block index 0; the adjacency windows and the output window move along the rows,
    the second adjacency window in the second half. -/
theorem idx_facts : ∀ t : Fin cfg0.N,
    win0_2.index t (0 : Fin 3) = 0 ∧ win0_2.index t (1 : Fin 3) = t.val ∧ win0_2.index t (2 : Fin 3) = 0
    ∧ win0_3.index t (0 : Fin 3) = 1 ∧ win0_3.index t (1 : Fin 3) = t.val ∧ win0_3.index t (2 : Fin 3) = 0
    ∧ win0_5.index t (0 : Fin 3) = 0 ∧ win0_5.index t (1 : Fin 3) = t.val ∧ win0_5.index t (2 : Fin 3) = 0 :=
  (by decide +kernel : ∀ t : Fin grid0.N, _)

theorem idx_facts_whole : ∀ t : Fin cfg0.N,
    win0_0.index t (0 : Fin 2) = 0 ∧ win0_0.index t (1 : Fin 2) = 0
    ∧ win0_1.index t (0 : Fin 2) = 0 ∧ win0_1.index t (1 : Fin 2) = 0
    ∧ win0_4.index t (0 : Fin 2) = 0 ∧ win0_4.index t (1 : Fin 2) = 0 :=
  (by decide +kernel : ∀ t : Fin grid0.N, _)

/-- What each transfer moves: on the row axis 224 rows, or what is left of the 5000 at the last point. -/
theorem size_facts : ∀ t : Fin cfg0.N,
    win0_2.xsize (grid0.coords t) (0 : Fin 3) = 1 ∧ win0_2.xsize (grid0.coords t) (1 : Fin 3) = min 224 (5000 - 224 * t.val)
    ∧ win0_2.xsize (grid0.coords t) (2 : Fin 3) = 10000
    ∧ win0_3.xsize (grid0.coords t) (0 : Fin 3) = 1 ∧ win0_3.xsize (grid0.coords t) (1 : Fin 3) = min 224 (5000 - 224 * t.val)
    ∧ win0_3.xsize (grid0.coords t) (2 : Fin 3) = 10000
    ∧ win0_5.xsize (grid0.coords t) (0 : Fin 3) = 2 ∧ win0_5.xsize (grid0.coords t) (1 : Fin 3) = min 224 (5000 - 224 * t.val)
    ∧ win0_5.xsize (grid0.coords t) (2 : Fin 3) = 128 :=
  (by decide +kernel : ∀ t : Fin grid0.N, _)

/-! ## The blocks, read at an entry -/

/-- The block of x is x. -/
theorem xb_apply (c : Dev nD) (t : Fin cfg0.N) (k : Fin 10000) (l : Fin 128) :
    xb m c t (ix2 k l) = argX m c (ix2 k l) := by
  obtain ⟨e0, e1, -, -, -, -⟩ := idx_facts_whole t
  have e : ((cfg0.win 0).blk t).view.emb (ix2 k l) = ix2 k l := by
    funext a; apply Fin.ext
    match a with
    | ⟨0, _⟩ => show win0_0.index t (0 : Fin 2) * 10000 + 1 * k.val = k.val; rw [e0]; omega
    | ⟨1, _⟩ => show win0_0.index t (1 : Fin 2) * 128 + 1 * l.val = l.val; rw [e1]; omega
  show V m c main_arg0 (((cfg0.win 0).blk t).view.emb (ix2 k l)) = _
  rw [e, V_arg0]

/-- The block of W is W. -/
theorem wb_apply (c : Dev nD) (t : Fin cfg0.N) (l : Fin 128) (j : Fin 128) :
    wb m c t (ix2 l j) = argW m c (ix2 l j) := by
  obtain ⟨-, -, e0, e1, -, -⟩ := idx_facts_whole t
  have e : ((cfg0.win 1).blk t).view.emb (ix2 l j) = ix2 l j := by
    funext a; apply Fin.ext
    match a with
    | ⟨0, _⟩ => show win0_1.index t (0 : Fin 2) * 128 + 1 * l.val = l.val; rw [e0]; omega
    | ⟨1, _⟩ => show win0_1.index t (1 : Fin 2) * 128 + 1 * j.val = j.val; rw [e1]; omega
  show V m c main_arg2 (((cfg0.win 1).blk t).view.emb (ix2 l j)) = _
  rw [e, V_arg2]

/-- The block of the bias row is the bias, read at the column. -/
theorem bb_apply (c : Dev nD) (t : Fin cfg0.N) (j : Fin 128) :
    bb m c t (ix2 (0 : Fin 1) j) = argB m c (ix1 j) := by
  obtain ⟨-, -, -, -, e0, e1⟩ := idx_facts_whole t
  have e : ((cfg0.win 4).blk t).view.emb (ix2 (0 : Fin 1) j) = ix2 (0 : Fin 1) j := by
    funext a; apply Fin.ext
    match a with
    | ⟨0, _⟩ => show win0_4.index t (0 : Fin 2) * 1 + 1 * 0 = 0; rw [e0]
    | ⟨1, _⟩ => show win0_4.index t (1 : Fin 2) * 128 + 1 * j.val = j.val; rw [e1]; omega
  show V m c main_call0_v1 (((cfg0.win 4).blk t).view.emb (ix2 (0 : Fin 1) j)) = _
  rw [e, V_bias2]
  refine shapeCast_apply _ _ _ (ix1 j) ?_
  rw [Shape.rowMajor_val_one, Shape.rowMajor_val_two]
  show j.val = 0 * 128 + j.val
  omega

/-- An entry of the support matrix the first grid point computes. -/
theorem sup_entry (c : Dev nD) (k : Fin 10000) (j : Fin 128) :
    sup m c (ix2 k j) = ∑ l : Fin 128, argX m c (ix2 k l) * argW m c (ix2 l j) := by
  unfold sup
  rw [sup_apply]
  simp only [xb_apply, wb_apply]

/-- Row r of the first adjacency block at point t, inside the array, is row 224·t + r of adj. -/
theorem top_apply (c : Dev nD) (t : Fin cfg0.N) (r : Fin 224) (k : Fin 10000) (P : Fin 10000)
    (hP : P.val = 224 * t.val + r.val) (hrow : 224 * t.val + r.val < 5000) :
    topb m c t (ix3 (0 : Fin 1) r k) = argAdj m c (ix2 P k) := by
  obtain ⟨e0, e1, e2, -, -, -, -, -, -⟩ := idx_facts t
  obtain ⟨x0, x1, x2, -, -, -, -, -, -⟩ := size_facts t
  have hmv : win0_2.moved (grid0.coords t) (ix3 (0 : Fin 1) r k) = true := by
    rw [Window.moved_iff]
    intro a
    match a with
    | ⟨0, _⟩ => show (0 : ℕ) < win0_2.xsize (grid0.coords t) (0 : Fin 3); rw [x0]; omega
    | ⟨1, _⟩ => show r.val < win0_2.xsize (grid0.coords t) (1 : Fin 3); rw [x1]; have := r.isLt; omega
    | ⟨2, _⟩ => show k.val < win0_2.xsize (grid0.coords t) (2 : Fin 3); rw [x2]; exact k.isLt
  unfold topb Window.fill
  rw [dif_pos hmv]
  show V m c main_call0_v0 (((cfg0.win 2).blk t).view.emb _) = _
  rw [V_adj3]
  refine shapeCast_apply _ _ _ (ix2 P k) ?_
  rw [Shape.rowMajor_val_two, Shape.rowMajor_val_three]
  show P.val * 10000 + k.val = ((win0_2.index t (0 : Fin 3) * 1 + 1 * 0) * 5000 + (win0_2.index t (1 : Fin 3) * 224 + 1 * r.val)) * 10000
    + (win0_2.index t (2 : Fin 3) * 10000 + 1 * k.val)
  rw [e0, e1, e2, hP]; omega

/-- Row r of the second adjacency block at point t, inside the array, is row 5000 + 224·t + r of adj. -/
theorem bot_apply (c : Dev nD) (t : Fin cfg0.N) (r : Fin 224) (k : Fin 10000) (P : Fin 10000)
    (hP : P.val = 5000 + (224 * t.val + r.val)) (hrow : 224 * t.val + r.val < 5000) :
    botb m c t (ix3 (0 : Fin 1) r k) = argAdj m c (ix2 P k) := by
  obtain ⟨-, -, -, e0, e1, e2, -, -, -⟩ := idx_facts t
  obtain ⟨-, -, -, x0, x1, x2, -, -, -⟩ := size_facts t
  have hmv : win0_3.moved (grid0.coords t) (ix3 (0 : Fin 1) r k) = true := by
    rw [Window.moved_iff]
    intro a
    match a with
    | ⟨0, _⟩ => show (0 : ℕ) < win0_3.xsize (grid0.coords t) (0 : Fin 3); rw [x0]; omega
    | ⟨1, _⟩ => show r.val < win0_3.xsize (grid0.coords t) (1 : Fin 3); rw [x1]; have := r.isLt; omega
    | ⟨2, _⟩ => show k.val < win0_3.xsize (grid0.coords t) (2 : Fin 3); rw [x2]; exact k.isLt
  unfold botb Window.fill
  rw [dif_pos hmv]
  show V m c main_call0_v0 (((cfg0.win 3).blk t).view.emb _) = _
  rw [V_adj3]
  refine shapeCast_apply _ _ _ (ix2 P k) ?_
  rw [Shape.rowMajor_val_two, Shape.rowMajor_val_three]
  show P.val * 10000 + k.val = ((win0_3.index t (0 : Fin 3) * 1 + 1 * 0) * 5000 + (win0_3.index t (1 : Fin 3) * 224 + 1 * r.val)) * 10000
    + (win0_3.index t (2 : Fin 3) * 10000 + 1 * k.val)
  rw [e0, e1, e2, hP]; omega

/-! ## What a point writes back is its block of the reshaped layer -/

theorem flushed_eq (c : Dev nD) (t : Fin cfg0.N) :
    (dat (F := Ideal) m c).flushed (5 : Fin 6) t = ((cfg0.win 5).blk t).view.read (Elt Ideal) (G m c) := by
  obtain ⟨-, -, -, -, -, -, e0, e1, e2⟩ := idx_facts t
  obtain ⟨-, -, -, -, -, -, x0, x1, x2⟩ := size_facts t
  funext y
  have hy0 : (y 0).val < win0_5.xsize (grid0.coords t) (0 : Fin 3) := (y 0).isLt
  have hy1 : (y 1).val < win0_5.xsize (grid0.coords t) (1 : Fin 3) := (y 1).isLt
  have hy2 : (y 2).val < win0_5.xsize (grid0.coords t) (2 : Fin 3) := (y 2).isLt
  rw [x0] at hy0; rw [x1] at hy1; rw [x2] at hy2
  have hr : (y 1).val < 224 := by omega
  have hrow : 224 * t.val + (y 1).val < 5000 := by omega
  -- the tile's entry
  have hL : (dat (F := Ideal) m c).flushed (5 : Fin 6) t y
      = if (y 0).val = 0
        then k0_pay3 (F := Ideal) (sup m c) (bb m c t) (topb m c t) (ix3 (0 : Fin 1) (⟨(y 1).val, hr⟩ : Fin 224) (⟨(y 2).val, hy2⟩ : Fin 128))
        else k0_pay4 (F := Ideal) (sup m c) (bb m c t) (botb m c t) (ix3 (0 : Fin 1) (⟨(y 1).val, hr⟩ : Fin 224) (⟨(y 2).val, hy2⟩ : Fin 128)) := rfl
  -- the array's entry
  have hR : ∀ P : Fin 10000, P.val = 5000 * (y 0).val + (224 * t.val + (y 1).val) →
      ((cfg0.win 5).blk t).view.read (Elt Ideal) (G m c) y = layer m c (ix2 P (⟨(y 2).val, hy2⟩ : Fin 128)) := by
    intro P hP
    show shapeCast S2x5000x128 (layer m c) hcast (((cfg0.win 5).blk t).view.emb y) = _
    refine shapeCast_apply _ _ _ _ ?_
    rw [Shape.rowMajor_val_two, Shape.rowMajor_val_three]
    show P.val * 128 + (y 2).val = ((win0_5.index t (0 : Fin 3) * 2 + 1 * (y 0).val) * 5000 + (win0_5.index t (1 : Fin 3) * 224 + 1 * (y 1).val)) * 128
      + (win0_5.index t (2 : Fin 3) * 128 + 1 * (y 2).val)
    rw [e0, e1, e2, hP]; omega
  rw [hL]
  by_cases h0 : (y 0).val = 0
  · rw [if_pos h0, hR ⟨224 * t.val + (y 1).val, by omega⟩ (by show 224 * t.val + (y 1).val = _; omega)]
    exact half_entry_top _ _ _ _ _ _ _ _ _ _ (sup_entry m c) (bb_apply m c t) (fun k => top_apply m c t _ k _ rfl hrow)
  · rw [if_neg h0, hR ⟨5000 + (224 * t.val + (y 1).val), by omega⟩ (by show 5000 + (224 * t.val + (y 1).val) = _; omega)]
    exact half_entry_bot _ _ _ _ _ _ _ _ _ _ (sup_entry m c) (bb_apply m c t) (fun k => bot_apply m c t _ k _ rfl hrow)

/-! ## The 23 blocks cover the array -/

/-- An index of the array is in point t's block iff each coordinate is in the block's range on its axis. -/
theorem mem_blk (t : Fin cfg0.N) (i : S2x5000x128.Idx) :
    i ∈ ((cfg0.win 5).blk t).view.set ↔ ∀ a : Fin 3, win0_5.index t a * S2x224x128.size a ≤ (i a).val
      ∧ (i a).val < win0_5.index t a * S2x224x128.size a + win0_5.xsize (grid0.coords t) a := by
  show i ∈ ((View.whole main_call0_v2).slice (win0_5.rect t)).set ↔ _
  rw [View.set_slice_whole, Rect.mem_set_unit]
  exact Iff.rfl

/-- Row R of either half lies in the block of point R / 224. -/
theorem cover (i : S2x5000x128.Idx) :
    ∃ t : Fin cfg0.N, (cfg0.win 5).flush t = true ∧ i ∈ ((cfg0.win 5).blk t).view.set := by
  have h0 : (i 0).val < 2 := (i 0).isLt
  have h1 : (i 1).val < 5000 := (i 1).isLt
  have h2 : (i 2).val < 128 := (i 2).isLt
  obtain ⟨t, ht⟩ : ∃ t : Fin cfg0.N, t.val = (i 1).val / 224 :=
    ⟨⟨(i 1).val / 224, by have : cfg0.N = 23 := N_0; omega⟩, rfl⟩
  obtain ⟨-, -, -, -, -, -, e0, e1, e2⟩ := idx_facts t
  obtain ⟨-, -, -, -, -, -, x0, x1, x2⟩ := size_facts t
  refine ⟨t, flush0_5 t, ?_⟩
  rw [mem_blk]
  intro a
  match a with
  | ⟨0, _⟩ =>
    show win0_5.index t (0 : Fin 3) * 2 ≤ (i 0).val ∧ (i 0).val < win0_5.index t (0 : Fin 3) * 2 + win0_5.xsize (grid0.coords t) (0 : Fin 3)
    rw [e0, x0]; omega
  | ⟨1, _⟩ =>
    show win0_5.index t (1 : Fin 3) * 224 ≤ (i 1).val ∧ (i 1).val < win0_5.index t (1 : Fin 3) * 224 + win0_5.xsize (grid0.coords t) (1 : Fin 3)
    rw [e1, x1]; omega
  | ⟨2, _⟩ =>
    show win0_5.index t (2 : Fin 3) * 128 ≤ (i 2).val ∧ (i 2).val < win0_5.index t (2 : Fin 3) * 128 + win0_5.xsize (grid0.coords t) (2 : Fin 3)
    rw [e2, x2]; omega

/-! ## The array after the run -/

/-- The output window's array after the last write-back is the layer's function, reshaped. -/
theorem out_eq (c : Dev nD) :
    ((dat (F := Ideal) m c).arrAt (5 : Fin 6) cfg0.N : S2x5000x128.Idx → EReal)
      = shapeCast S2x5000x128 (layer m c) hcast :=
  (dat (F := Ideal) m c).arrAt_eq_of_cover (5 : Fin 6) (G m c) (fun t _ => flushed_eq m c t) cover

/-- The result array: the reshape after the region gives the layer's function back. -/
theorem result_eq (c : Dev nD) :
    reshapeOut ((dat (F := Ideal) m c).arrAt (5 : Fin 6) cfg0.N : S2x5000x128.Idx → EReal) = layer m c := by
  rw [out_eq]
  exact shapeCast_shapeCast _ _ _

end Cert.KernelIdeal.Named

end
-- ==== Proof.RefValue.lean ====
/-
  The reference program's result term, at the ideal instance, is the layer's one function of the four argument
  arrays: entry by entry, max( Σ_k adj[i, k] · (Σ_l x[k, l] · W[l, j]) + bias[j], 0 ). The reference groups the two
  products exactly as the specification does, so nothing beyond naming the operand indices by their coordinates is
  needed: each dot_general reads its left operand at (row, k) and its right at (k, column); the two broadcasts of the
  bias read it at the column; the broadcast scalar is the zero word.
-/
import proofs.«157422_g85813446574119_cont_sun_m_903_13_alg».proof.Defs
import proofs.«157422_g85813446574119_cont_sun_m_903_13_alg».proof.Proof.Gen.ReferenceIdeal.Run
import proofs.«157422_g85813446574119_cont_sun_m_903_13_alg».proof.Proof.Gen.ReferenceIdeal.Read
import proofs.«157422_g85813446574119_cont_sun_m_903_13_alg».proof.Proof.Spec

noncomputable section

namespace Cert.ReferenceIdeal.RefValue

open Cert.ReferenceIdeal Cert.ReferenceIdeal.Gen Cert.ReferenceIdeal.Read Idealize.ShloMosaic Idealize.ShloMosaic.ValueIdx

/-! ## The operand indices, by coordinates

Every index is written from coordinates of literal range (a row p or k below 10000, a column q or l below 128), so
that each side of each equation is an index of a literal shape. -/

/-- adj · S at (p, q) reads adj at (p, k). -/
theorem lidx_v1 (p : Fin 10000) (q : Fin 128) (k : Fin 10000) : lidx_main_v1 (ix2 p q) k = ix2 p k :=
  funext fun a => Fin.ext (by match a with | ⟨0, _⟩ => rfl | ⟨1, _⟩ => rfl)

/-- adj · S at (p, q) reads S at (k, q). -/
theorem ridx_v1 (p : Fin 10000) (q : Fin 128) (k : Fin 10000) : ridx_main_v1 (ix2 p q) k = ix2 k q :=
  funext fun a => Fin.ext (by match a with | ⟨0, _⟩ => rfl | ⟨1, _⟩ => rfl)

/-- x · W at (k, q) reads x at (k, l). -/
theorem lidx_v0 (k : Fin 10000) (q : Fin 128) (l : Fin 128) : lidx_main_v0 (ix2 k q) l = ix2 k l :=
  funext fun a => Fin.ext (by match a with | ⟨0, _⟩ => rfl | ⟨1, _⟩ => rfl)

/-- x · W at (k, q) reads W at (l, q). -/
theorem ridx_v0 (k : Fin 10000) (q : Fin 128) (l : Fin 128) : ridx_main_v0 (ix2 k q) l = ix2 l q :=
  funext fun a => Fin.ext (by match a with | ⟨0, _⟩ => rfl | ⟨1, _⟩ => rfl)

/-- The bias, broadcast to one row and then down the rows, is read at (p, q) at the column q. -/
theorem idx_bias (p : Fin 10000) (q : Fin 128) : idx_main_v2 (idx_main_v3 (ix2 p q)) = ix1 q :=
  funext fun a => Fin.ext (by match a with | ⟨0, _⟩ => rfl)

/-! ## The layer at an entry -/

/-- The layer at the entry (p, q), written out: max( Σ_k adj[p, k] · Σ_l x[k, l] · W[l, q] + bias[q], 0 ). -/
theorem gcn_apply (x : S10000x128.Idx → EReal) (adj : S10000x10000.Idx → EReal) (w : S128x128.Idx → EReal)
    (b : S128.Idx → EReal) (p : Fin 10000) (q : Fin 128) :
    Cert.Gcn.gcn x adj w b (ix2 p q)
      = FloatOps.maximumf (F := Ideal)
          ((∑ k : Fin 10000, adj (ix2 p k) * ∑ l : Fin 128, x (ix2 k l) * w (ix2 l q)) + b (ix1 q))
          (Ideal.ofBits .f32 0x00000000#32) := rfl

/-! ## The reference is the layer -/

/-- The reference run's result term, at the ideal instance, is the layer of the four argument arrays. -/
theorem ref_eq (x : S10000x128.Idx → EReal) (adj : S10000x10000.Idx → EReal) (w : S128x128.Idx → EReal) (b : S128.Idx → EReal) :
    maximumf (F := Ideal) (addf (F := Ideal) (Host.dotGeneral (F := Ideal) (φ₁ := .f32) (φ₂ := .f32) dot_S10000x10000_S10000x128_S10000x128_1_0_0_1_n_n none adj (Host.dotGeneral (F := Ideal) (φ₁ := .f32) (φ₂ := .f32) dot_S10000x128_S128x128_S10000x128_1_0_0_1_n_n none x w))
                     (broadcastInDim S10000x128 ![0, 1] bcast_S1x128_S10000x128_0_1 (broadcastInDim S1x128 ![1] bcast_S128_S1x128_1 b)))
               (broadcastInDim S10000x128 ![] bcast_S_S10000x128 (constant (F := Ideal) S_ .f32 0x00000000#32))
      = Cert.Gcn.gcn x adj w b := by
  refine (val_main_v5_eq (F := Ideal) x adj w b).trans (funext fun (i : S10000x128.Idx) => ?_)
  obtain ⟨p, q, rfl⟩ : ∃ (p : Fin 10000) (q : Fin 128), i = ix2 p q := ⟨i 0, i 1, eq_ix2 i⟩
  rw [val_main_v5_apply, val_main_v4_apply, val_main_v1_apply, val_main_v3_apply, val_main_v2_apply,
    val_main_call0_v0_apply, val_main_call0_cst_apply, idx_bias, gcn_apply]
  simp only [lidx_v1, ridx_v1, val_main_v0_apply x w, lidx_v0, ridx_v0, Ideal.addf_def, Ideal.ofBits_def]

end Cert.ReferenceIdeal.RefValue

end
-- ==== Proof.lean ====
/-
  The certificate of one graph-convolution layer, out = max(adj · (x · W) + bias, 0), computed by one fused
  kernel against its plain reference.
  The kernel views the adjacency matrix as its two row halves [2, 5000, 10000] and streams one 224-row block of
  each half per grid point (23 points; the last block overhangs the half by 152 rows and is cut); at the first
  point it computes the support matrix S = x · W once into a scratch buffer that persists; at every point it
  writes max(block · S + bias, 0) for both halves. The reference computes the same two products in the same
  grouping, adds the bias and rectifies. At the exact instance both results are, entry by entry,
  max(Σ_k adj[i, k] · (Σ_l x[k, l] · W[l, j]) + bias[j], 0): the matrix unit's product into a zero accumulator and
  the host's dot_general are the same sum, so nothing beyond re-indexing is needed and the precondition is not used.
  The three frames: the two kernels' by one launch of the kernel region around the host reshapes, stated for any
  float instance with proof data that constrain nothing (a frame does not read the result); the reference's by its
  run. The ideal pass rewrote nothing, so the preservation claim is trivially true.
-/
import proofs.«157422_g85813446574119_cont_sun_m_903_13_alg».proof.Defs
import proofs.«157422_g85813446574119_cont_sun_m_903_13_alg».proof.Proof.Gen.Kernel
import proofs.«157422_g85813446574119_cont_sun_m_903_13_alg».proof.Proof.Gen.KernelIdeal
import proofs.«157422_g85813446574119_cont_sun_m_903_13_alg».proof.Proof.Gen.ReferenceIdeal
import proofs.«157422_g85813446574119_cont_sun_m_903_13_alg».proof.Proof.Gen.Pre_finite_inputs
import proofs.«157422_g85813446574119_cont_sun_m_903_13_alg».proof.Proof.Gen.ReferenceIdeal.Run
import proofs.«157422_g85813446574119_cont_sun_m_903_13_alg».proof.Proof.KernelFrame
import proofs.«157422_g85813446574119_cont_sun_m_903_13_alg».proof.Proof.KernelIdealFrame
import proofs.«157422_g85813446574119_cont_sun_m_903_13_alg».proof.Proof.IdealValueRun
import proofs.«157422_g85813446574119_cont_sun_m_903_13_alg».proof.Proof.IdealRowLocal
import proofs.«157422_g85813446574119_cont_sun_m_903_13_alg».proof.Proof.IdealOut
import proofs.«157422_g85813446574119_cont_sun_m_903_13_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs to the end and leaves its arguments unchanged. -/
theorem frame_k : Cert.frame_Kernel (hKernel := Cert.Kernel.Gen.facts) (hPre_finite_inputs := Cert.Pre_finite_inputs.Gen.facts) :=
  fun m ρ _ => Cert.Kernel.Frame.frame_any (F := Bits) m ρ

/-- So does the idealized kernel. -/
theorem frame_ki : Cert.frame_KernelIdeal (hKernelIdeal := Cert.KernelIdeal.Gen.facts) (hPre_finite_inputs := Cert.Pre_finite_inputs.Gen.facts) :=
  fun m ρ _ => Cert.KernelIdeal.Frame.frame_any (F := Ideal) m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both idealized programs end with the layer's function of the (agreeing) arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Named.layer m c, ?_, ?_⟩
  · exact (θ_run Cert.KernelIdeal.defs _ _).mono
      (fun r h c => ⟨(h c).1.trans (Cert.KernelIdeal.Named.result_eq m c), (h c).2⟩)
      (Cert.KernelIdeal.Named.value_run (F := Ideal) m ρ Cert.KernelIdeal.Named.rowLocal_ideal)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2]
    exact Cert.ReferenceIdeal.RefValue.ref_eq _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
